-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x524288 : Shape := ⟨3, ![8, 16, 524288]⟩
abbrev S8x524288 : Shape := ⟨2, ![8, 524288]⟩
abbrev S_ : Shape := ⟨0, ![]⟩

class Facts : Prop where
  bcast_S_S8x16x524288 : S_.BroadcastsInDim S8x16x524288 (![] : Fin 0 → Fin S8x16x524288.rank)
  reducesTo_S8x16x524288_S_d0_1_2 : S8x16x524288.ReducesTo [0, 1, 2] S_
  h_S_ : 0 < S_.numel
  bcast_S_S8x524288 : S_.BroadcastsInDim S8x524288 (![] : Fin 0 → Fin S8x524288.rank)
  reducesTo_S8x524288_S_d0_1 : S8x524288.ReducesTo [0, 1] S_

variable [Facts]

def fn {F : FTy → Type} [FloatOps F] (main_arg0 : FVec F S8x16x524288 .f32) (main_arg1 : IVec S8x524288 32) : IVec S_ 1 :=
  let main_v0 : FVec F S8x16x524288 .f32 := Host.absf main_arg0
  let main_cst : FVec F S_ .f32 := constant S_ .f32 0x7F800000#32
  let main_v1 : FVec F S8x16x524288 .f32 := broadcastInDim S8x16x524288 ![] bcast_S_S8x16x524288 main_cst
  let main_v2 : IVec S8x16x524288 1 := cmpf .olt main_v0 main_v1
  let main_c : IVec S_ 1 := constantI S_ 1 1#1
  let main_v3 : IVec S_ 1 := (fun x v => Host.reduce IntOp.andi x v reducesTo_S8x16x524288_S_d0_1_2 h_S_) main_v2 main_c
  let main_c_0 : IVec S_ 32 := constantI S_ 32 0#32
  let main_v4 : IVec S8x524288 32 := broadcastInDim S8x524288 ![] bcast_S_S8x524288 main_c_0
  let main_v5 : IVec S8x524288 1 := cmpi .sge main_arg1 main_v4
  let main_c_1 : IVec S_ 1 := constantI S_ 1 1#1
  let main_v6 : IVec S_ 1 := (fun x v => Host.reduce IntOp.andi x v reducesTo_S8x524288_S_d0_1 h_S_) main_v5 main_c_1
  let main_v7 : IVec S_ 1 := andi main_v3 main_v6
  let main_c_2 : IVec S_ 32 := constantI S_ 32 49152#32
  let main_v8 : IVec S8x524288 32 := broadcastInDim S8x524288 ![] bcast_S_S8x524288 main_c_2
  let main_v9 : IVec S8x524288 1 := cmpi .slt main_arg1 main_v8
  let main_c_3 : IVec S_ 1 := constantI S_ 1 1#1
  let main_v10 : IVec S_ 1 := (fun x v => Host.reduce IntOp.andi x v reducesTo_S8x524288_S_d0_1 h_S_) main_v9 main_c_3
  let main_v11 : IVec S_ 1 := andi main_v7 main_v10
  main_v11
-- ==== Kernel.lean ====
abbrev S8x16x524288 : Shape := ⟨3, ![8, 16, 524288]⟩
abbrev S8x524288 : Shape := ⟨2, ![8, 524288]⟩
abbrev S8x1x524288 : Shape := ⟨3, ![8, 1, 524288]⟩
abbrev S192 : Shape := ⟨1, ![192]⟩
abbrev S192x1 : Shape := ⟨2, ![192, 1]⟩
abbrev S192x4096 : Shape := ⟨2, ![192, 4096]⟩
abbrev S256 : Shape := ⟨1, ![256]⟩
abbrev S256x1 : Shape := ⟨2, ![256, 1]⟩
abbrev S256x4096 : Shape := ⟨2, ![256, 4096]⟩
abbrev S8x192x256 : Shape := ⟨3, ![8, 192, 256]⟩
abbrev S1x1x32768 : Shape := ⟨3, ![1, 1, 32768]⟩
abbrev S1x192x256 : Shape := ⟨3, ![1, 192, 256]⟩
abbrev S384x256 : Shape := ⟨2, ![384, 256]⟩
abbrev S384x4096 : Shape := ⟨2, ![384, 4096]⟩
abbrev S1x1x4096 : Shape := ⟨3, ![1, 1, 4096]⟩
abbrev S1x4096 : Shape := ⟨2, ![1, 4096]⟩
abbrev S192x256 : Shape := ⟨2, ![192, 256]⟩
abbrev S8x49152 : Shape := ⟨2, ![8, 49152]⟩
abbrev S8x49152x1 : Shape := ⟨3, ![8, 49152, 1]⟩
abbrev S8x49152x16 : Shape := ⟨3, ![8, 49152, 16]⟩

abbrev nBuf : Space → Nat
  | .hbm => 16
  | .vmem => 10
  | .smem => 0
  | _ => 0

abbrev bufTy : (tb : Table) → Fin (tcTables nBuf tb) → BufTy
  | .hbm, ⟨0, _⟩ => ⟨S8x16x524288, .f32⟩
  | .hbm, ⟨1, _⟩ => ⟨S8x524288, .i32⟩
  | .hbm, ⟨2, _⟩ => ⟨S8x1x524288, .f32⟩
  | .hbm, ⟨3, _⟩ => ⟨S8x524288, .f32⟩
  | .hbm, ⟨4, _⟩ => ⟨S8x1x524288, .f32⟩
  | .hbm, ⟨5, _⟩ => ⟨S8x1x524288, .i32⟩
  | .hbm, ⟨6, _⟩ => ⟨S192, .i32⟩
  | .hbm, ⟨7, _⟩ => ⟨S192x1, .i32⟩
  | .hbm, ⟨8, _⟩ => ⟨S192x4096, .i32⟩
  | .hbm, ⟨9, _⟩ => ⟨S256, .i32⟩
  | .hbm, ⟨10, _⟩ => ⟨S256x1, .i32⟩
  | .hbm, ⟨11, _⟩ => ⟨S256x4096, .i32⟩
  | .hbm, ⟨12, _⟩ => ⟨S8x192x256, .f32⟩
  | .hbm, ⟨13, _⟩ => ⟨S8x49152, .f32⟩
  | .hbm, ⟨14, _⟩ => ⟨S8x49152x1, .f32⟩
  | .hbm, ⟨15, _⟩ => ⟨S8x49152x16, .f32⟩
  | .local _ .vmem, ⟨0, _⟩ => ⟨S1x1x32768, .f32⟩
  | .local _ .vmem, ⟨1, _⟩ => ⟨S1x1x32768, .f32⟩
  | .local _ .vmem, ⟨2, _⟩ => ⟨S1x1x32768, .i32⟩
  | .local _ .vmem, ⟨3, _⟩ => ⟨S1x1x32768, .i32⟩
  | .local _ .vmem, ⟨4, _⟩ => ⟨S192x4096, .i32⟩
  | .local _ .vmem, ⟨5, _⟩ => ⟨S256x4096, .i32⟩
  | .local _ .vmem, ⟨6, _⟩ => ⟨S1x192x256, .f32⟩
  | .local _ .vmem, ⟨7, _⟩ => ⟨S1x192x256, .f32⟩
  | .local _ .vmem, ⟨8, _⟩ => ⟨S384x256, .f32⟩
  | .local _ .vmem, ⟨9, _⟩ => ⟨S384x4096, .bf16⟩
  | _, _ => ⟨S8x16x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_4 : BitVec 32 := 0#32
  let c8_i32 : BitVec 32 := 8#32
  let v7 : BitVec 32 := Scalar.addi c0_i32_4 c8_i32
  let c1_i32 : BitVec 32 := 1#32
  ⟨c0_i32_4, v7, c1_i32⟩
def k0_mult1 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c4096_i32 : BitVec 32 := 4096#32
  let v11 : BitVec 32 := Scalar.muli arg9 c4096_i32
  v11
def k0_off1 (k0_t1 : Fin k0_t1_loop.trips) : Fin 3 → Nat :=
  let c0_7 : Index := 0#32
  let c0_8 : Index := 0#32
  let c0_i32_4 : BitVec 32 := 0#32
  let c1_i32 : BitVec 32 := 1#32
  let arg9 : BitVec 32 := Scf.iv c0_i32_4 c1_i32 k0_t1
  let c4096_i32 : BitVec 32 := 4096#32
  let v11 : BitVec 32 := Scalar.muli arg9 c4096_i32
  let v12 : BitVec 32 := v11
  let v13 : Index := Scalar.indexCast v12
  ![0, 0, v13.toNat]
def k0_cond2 (i : grid0.Coords) : BitVec 1 :=
  let arg1 : BitVec 32 := BitVec.ofNat 32 (i 1).val
  let c15_i32 : BitVec 32 := 15#32
  let v8 : BitVec 1 := Scalar.cmpi .eq arg1 c15_i32
  let v9 : BitVec 32 := Scalar.extui v8
  let c0_i32_6 : BitVec 32 := 0#32
  let v10 : BitVec 1 := Scalar.cmpi .ne v9 c0_i32_6
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S192x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S8x16x524288_S8x1x524288_0_0_0 : S8x16x524288.Slices ![0, 0, 0] S8x1x524288
  shapeCasts_S8x1x524288_S8x524288 : S8x1x524288.ShapeCasts S8x524288
  bcast_S8x524288_S8x1x524288_0_2 : S8x524288.BroadcastsInDim S8x1x524288 (![0, 2] : Fin 2 → Fin S8x1x524288.rank)
  bcast_S192_S192x1_0 : S192.BroadcastsInDim S192x1 (![0] : Fin 1 → Fin S192x1.rank)
  bcast_S192x1_S192x4096_0_1 : S192x1.BroadcastsInDim S192x4096 (![0, 1] : Fin 2 → Fin S192x4096.rank)
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S192x4096_S192x4096_0_0 : ∀ a, (![0, 0] : Fin 2 → Nat) a + S192x4096.size a ≤ S192x4096.size a
  h_S192x4096 : 0 < S192x4096.numel
  shapeCasts_S192x4096_S192x4096 : S192x4096.ShapeCasts S192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  h_S1x1x4096 : 0 < S1x1x4096.numel
  shapeCasts_S1x1x4096_S1x1x4096 : S1x1x4096.ShapeCasts S1x1x4096
  shapeCasts_S1x1x4096_S1x4096 : S1x1x4096.ShapeCasts S1x4096
  broadcasts_S1x4096_S192x4096 : S1x4096.Broadcasts S192x4096
  broadcasts_S1x4096_S256x4096 : S1x4096.Broadcasts S256x4096
  natLt_1_32 : 1 < 32
  bitsLt_bf16_f32 : FTy.bits .bf16 < FTy.bits .f32
  shapeCasts_S1x4096_S1x4096 : S1x4096.ShapeCasts S1x4096
  inb_S384x4096_S192x4096_0_0 : ∀ a, (![0, 0] : Fin 2 → Nat) a + S192x4096.size a ≤ S384x4096.size a
  packedbf16_S384x4096_S192x4096_0_0 : (Rect.unit (s := S384x4096) ![0, 0] S192x4096.size inb_S384x4096_S192x4096_0_0).PackedRows (EltTy.packing .bf16)
  inb_S384x4096_S192x4096_192_0 : ∀ a, (![192, 0] : Fin 2 → Nat) a + S192x4096.size a ≤ S384x4096.size a
  packedbf16_S384x4096_S192x4096_192_0 : (Rect.unit (s := S384x4096) ![192, 0] S192x4096.size inb_S384x4096_S192x4096_192_0).PackedRows (EltTy.packing .bf16)
  inb_S384x4096_S384x4096_0_0 : ∀ a, (![0, 0] : Fin 2 → Nat) a + S384x4096.size a ≤ S384x4096.size a
  h_S384x4096 : 0 < S384x4096.numel
  inb_S384x256_S192x256_0_0 : ∀ a, (![0, 0] : Fin 2 → Nat) a + S192x256.size a ≤ S384x256.size a
  h_S192x256 : 0 < S192x256.numel
  inb_S384x256_S192x256_192_0 : ∀ a, (![192, 0] : Fin 2 → Nat) a + S192x256.size a ≤ S384x256.size a
  shapeCasts_S192x256_S1x192x256 : S192x256.ShapeCasts S1x192x256
  inb_S1x192x256_S1x192x256_0_0_0 : ∀ a, (![0, 0, 0] : Fin 3 → Nat) a + S1x192x256.size a ≤ S1x192x256.size a
  h_S1x192x256 : 0 < S1x192x256.numel
  shapeCasts_S8x192x256_S8x49152 : S8x192x256.ShapeCasts S8x49152
  bcast_S8x49152_S8x49152x1_0_1 : S8x49152.BroadcastsInDim S8x49152x1 (![0, 1] : Fin 2 → Fin S8x49152x1.rank)
  bcast_S8x49152x1_S8x49152x16_0_1_2 : S8x49152x1.BroadcastsInDim S8x49152x16 (![0, 1, 2] : Fin 3 → Fin S8x49152x16.rank)
  dot_S384x4096_S256x4096_S384x256_1_1_0_0_n_n_wf : DotDims.WF S384x4096 S256x4096 S384x256 [1] [1] [0] [0] [] []
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S1x1x4096.size a ≤ S1x1x32768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32768.size a ≤ S8x1x524288.size a
  hwx0_0 : ∀ i : grid0.Coords, EltTy.bits .f32 = 32 ∨ (Rect.block (s := S8x1x524288) S1x1x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32768.size a ≤ S8x1x524288.size a
  hwx0_1 : ∀ i : grid0.Coords, EltTy.bits .i32 = 32 ∨ (Rect.block (s := S8x1x524288) S1x1x32768.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x4096.size a ≤ S192x4096.size a
  hwx0_2 : ∀ i : grid0.Coords, EltTy.bits .i32 = 32 ∨ (Rect.block (s := S192x4096) S192x4096.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x4096.size a
  hwx0_3 : ∀ i : grid0.Coords, EltTy.bits .i32 = 32 ∨ (Rect.block (s := S256x4096) S256x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x192x256.size a ≤ S8x192x256.size a
  hwx0_4 : ∀ i : grid0.Coords, EltTy.bits .f32 = 32 ∨ (Rect.block (s := S8x192x256) S1x192x256.size (cc0_transform_4 i) (hinb0_4 i)).WholeWords (EltTy.packing .f32)

variable [Facts₀]

def dot_S384x4096_S256x4096_S384x256_1_1_0_0_n_n : DotDims S384x4096 S256x4096 S384x256 where
  lhsContracting := [1]
  rhsContracting := [1]
  lhsNonContracting := [0]
  rhsNonContracting := [0]
  lhsBatch := []
  rhsBatch := []
  wf := dot_S384x4096_S256x4096_S384x256_1_1_0_0_n_n_wf

abbrev win0_0 : Pipeline.Window sig grid0 :=
  Pipeline.Window.ofSpec (Memref.whole main_v2) S1x1x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S192x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x192x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x16x524288 : Shape := ⟨3, ![8, 16, 524288]⟩
abbrev S8x524288 : Shape := ⟨2, ![8, 524288]⟩
abbrev S8 : Shape := ⟨1, ![8]⟩
abbrev S8x1 : Shape := ⟨2, ![8, 1]⟩
abbrev S_ : Shape := ⟨0, ![]⟩
abbrev S4194304 : Shape := ⟨1, ![4194304]⟩
abbrev S8x1x524288 : Shape := ⟨3, ![8, 1, 524288]⟩
abbrev S393216 : Shape := ⟨1, ![393216]⟩
abbrev S4194304x1 : Shape := ⟨2, ![4194304, 1]⟩
abbrev S8x49152 : Shape := ⟨2, ![8, 49152]⟩
abbrev S8x49152x1 : Shape := ⟨3, ![8, 49152, 1]⟩
abbrev S8x49152x16 : Shape := ⟨3, ![8, 49152, 16]⟩

abbrev nBuf : Space → Nat
  | .hbm => 31
  | .vmem => 0
  | .smem => 0
  | _ => 0

abbrev bufTy : (tb : Table) → Fin (tcTables nBuf tb) → BufTy
  | .hbm, ⟨0, _⟩ => ⟨S8x16x524288, .f32⟩
  | .hbm, ⟨1, _⟩ => ⟨S8x524288, .i32⟩
  | .hbm, ⟨2, _⟩ => ⟨S8, .i32⟩
  | .hbm, ⟨3, _⟩ => ⟨S8x1, .i32⟩
  | .hbm, ⟨4, _⟩ => ⟨S_, .i32⟩
  | .hbm, ⟨5, _⟩ => ⟨S8x1, .i32⟩
  | .hbm, ⟨6, _⟩ => ⟨S8x1, .i32⟩
  | .hbm, ⟨7, _⟩ => ⟨S8x524288, .i32⟩
  | .hbm, ⟨8, _⟩ => ⟨S8x524288, .i32⟩
  | .hbm, ⟨9, _⟩ => ⟨S4194304, .i32⟩
  | .hbm, ⟨10, _⟩ => ⟨S8x1x524288, .f32⟩
  | .hbm, ⟨11, _⟩ => ⟨S8x524288, .f32⟩
  | .hbm, ⟨12, _⟩ => ⟨S4194304, .f32⟩
  | .hbm, ⟨13, _⟩ => ⟨S_, .f32⟩
  | .hbm, ⟨14, _⟩ => ⟨S393216, .f32⟩
  | .hbm, ⟨15, _⟩ => ⟨S4194304x1, .i32⟩
  | .hbm, ⟨16, _⟩ => ⟨S393216, .f32⟩
  | .hbm, ⟨17, _⟩ => ⟨S_, .f32⟩
  | .hbm, ⟨18, _⟩ => ⟨S4194304, .f32⟩
  | .hbm, ⟨19, _⟩ => ⟨S_, .f32⟩
  | .hbm, ⟨20, _⟩ => ⟨S393216, .f32⟩
  | .hbm, ⟨21, _⟩ => ⟨S4194304x1, .i32⟩
  | .hbm, ⟨22, _⟩ => ⟨S393216, .f32⟩
  | .hbm, ⟨23, _⟩ => ⟨S8x49152, .f32⟩
  | .hbm, ⟨24, _⟩ => ⟨S8x49152, .f32⟩
  | .hbm, ⟨25, _⟩ => ⟨S_, .f32⟩
  | .hbm, ⟨26, _⟩ => ⟨S8x49152, .f32⟩
  | .hbm, ⟨27, _⟩ => ⟨S8x49152, .f32⟩
  | .hbm, ⟨28, _⟩ => ⟨S8x49152, .f32⟩
  | .hbm, ⟨29, _⟩ => ⟨S8x49152x1, .f32⟩
  | .hbm, ⟨30, _⟩ => ⟨S8x49152x16, .f32⟩
  | _, _ => ⟨S8x16x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S8_S8x1_0 : S8.BroadcastsInDim S8x1 (![0] : Fin 1 → Fin S8x1.rank)
  bcast_S_S8x1 : S_.BroadcastsInDim S8x1 (![] : Fin 0 → Fin S8x1.rank)
  bcast_S8x1_S8x524288_0_1 : S8x1.BroadcastsInDim S8x524288 (![0, 1] : Fin 2 → Fin S8x524288.rank)
  shapeCasts_S8x524288_S4194304 : S8x524288.ShapeCasts S4194304
  slices_S8x16x524288_S8x1x524288_0_0_0 : S8x16x524288.Slices ![0, 0, 0] S8x1x524288
  shapeCasts_S8x1x524288_S8x524288 : S8x1x524288.ShapeCasts S8x524288
  bcast_S_S393216 : S_.BroadcastsInDim S393216 (![] : Fin 0 → Fin S393216.rank)
  bcast_S4194304_S4194304x1_0 : S4194304.BroadcastsInDim S4194304x1 (![0] : Fin 1 → Fin S4194304x1.rank)
  bcast_S_S4194304 : S_.BroadcastsInDim S4194304 (![] : Fin 0 → Fin S4194304.rank)
  shapeCasts_S393216_S8x49152 : S393216.ShapeCasts S8x49152
  bcast_S_S8x49152 : S_.BroadcastsInDim S8x49152 (![] : Fin 0 → Fin S8x49152.rank)
  bcast_S8x49152_S8x49152x1_0_1 : S8x49152.BroadcastsInDim S8x49152x1 (![0, 1] : Fin 2 → Fin S8x49152x1.rank)
  bcast_S8x49152x1_S8x49152x16_0_1_2 : S8x49152x1.BroadcastsInDim S8x49152x16 (![0, 1, 2] : Fin 3 → Fin S8x49152x16.rank)
  scatter_S393216_S4194304x1_S4194304_n_0_0_1_wf : ScatterDims.WF S393216 S4194304x1 S4194304 [] [0] [0] 1

variable [Facts₀]

def scatter_S393216_S4194304x1_S4194304_n_0_0_1 : ScatterDims S393216 S4194304x1 S4194304 where
  updateWindowDims := []
  insertedWindowDims := [0]
  scatterDimsToOperandDims := [0]
  indexVectorDim := 1
  wf := scatter_S393216_S4194304x1_S4194304_n_0_0_1_wf

class Facts : Prop extends Facts₀ where

variable [Facts]
-- ==== Proof.BodyDefs.lean ====
/-
  What the proofs about the kernel body share: the body's two branch conditions, decided over the grid of
  8 × 16 = 128 points (point t has coordinates (t / 16, t % 16)); where each window is in use and where the output
  window is written back; the staging and scratch memrefs the body is called on at a point; and the invariant the body
  is handed and gives back, opened into the two scratch buffers owned at some contents and the random-number register.

  The first branch (clear the accumulator) is taken where the second coordinate is 0, that is at the points
  t ≡ 0 (mod 16); the second (divide and store the output block) where it is 15, at the points t ≡ 15 (mod 16).
  The four inputs are in use at every point; the output window is in use, and written back, exactly at the points of the
  second branch.
-/
import proofs.«430517_j86431921865188_3_alg».proof.Proof.Gen.KernelIdeal.Frame
import proofs.«430517_j86431921865188_3_alg».proof.Proof.Gen.KernelIdeal.Loops
import proofs.«430517_j86431921865188_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first branch, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds at the points t ≡ 0 (mod 16): decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second branch, from the grid coordinates: the second coordinate is 15. -/
abbrev cond0_1 (i : grid0.Coords) : Prop := k0_cond2 i = 1#1
/-- It holds at the points t ≡ 15 (mod 16): decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Away from the second branch the output window is idle: the body stores nothing into it. -/
theorem idleAt0_4 : ∀ t : Fin cfg0.N, ¬cond0_1 (grid0.coords t) → cfg0.idle 4 (grid0.coords t) = true := by decide +kernel
/-- Away from the second branch the output block is not written back. -/
theorem noFlush0_4 : ∀ t : Fin cfg0.N, ¬cond0_1 (grid0.coords t) → (cfg0.win 4).flush t = false := by decide +kernel
/-- At the points of the second branch the output window is live: the body stores into it. -/
theorem liveAt0_4 : ∀ t : Fin cfg0.N, cond0_1 (grid0.coords t) → cfg0.idle 4 (grid0.coords t) = false := by decide +kernel

/-! ## The kernel body on its staging and scratch memrefs -/

/-- Each window's current staging memref at point `t`, spelled as the body is called on it, and its wholeness. -/
abbrev ms0_0 (t : Fin cfg0.N) : Memref sig .tc .vmem S1x1x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x4096 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x192x256 .f32 := win0_4.stage (cfg0.slots t 4)
abbrev hs0_4 (t : Fin cfg0.N) : (ms0_4 t).IsWhole := hstage0_4 ((cfg0.slots t 4).cast nbuf0_4)
/-- The scratch operands: whole buffers of the kernel's own, carried from point to point beside the windows
    (the accumulator, 384 × 256, and the stacked one-hot rows, 384 × 4096). -/
abbrev scM0_0 : Memref sig .tc .vmem S384x256 .f32 := Memref.whole cc0_scratch0
abbrev scM0_1 : Memref sig .tc .vmem S384x4096 .bf16 := Memref.whole cc0_scratch1

/-- The invariant carried between points, with the two scratch operands as memrefs owned at some contents: what the
    body is handed and what it gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body at point `t` is the kernel on these memrefs. -/
theorem bodyAt0_eq (t : Fin cfg0.N) :
    bodyAt0 (F := F) t = cc0__segment_kernel (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _) := rfl

end Cert.KernelIdeal.Body

end
-- ==== Proof.LoopVal.lean ====
/-
  The accumulator after the body's counted loop, as a function of what the loop read.

  One trip reads its 4096 samples of the value block and of the pixel block, builds the left operand
  (two stacked halves, each a row test against the pixel's high digit), multiplies it into the one-hot of the low
  digit, and adds the product to the accumulator.  The accumulator after the trips is therefore the fold of that
  one-trip function over the trips, started from what the loop found.
-/
import proofs.«430517_j86431921865188_3_alg».proof.Proof.Gen.KernelIdeal.Frame
import proofs.«430517_j86431921865188_3_alg».proof.Proof.Gen.KernelIdeal.Loops
import proofs.«430517_j86431921865188_3_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Trip `k`'s samples of a block of 32768: those numbered 4096 k and up. -/
abbrev ldk {e : EltTy} (x : Vec F S1x1x32768 e) (k : Fin k0_t1_loop.trips) : Vec F S1x1x4096 e :=
  View.ld x (Rect.unit (s := S1x1x32768) (k0_off1 k) S1x1x4096.size (k0_off1_inb k))

/-- The two stores that fill the left operand in one trip: the weighted half on rows 0–191, the plain half on rows 192–383. -/
abbrev lhsPieces (v3 : Vec F S192x4096 .i32) (x0k : Vec F S1x1x4096 .f32) (x1k : Vec F S1x1x4096 .i32) :
    List (View.Piece (Elt F) S384x4096 .bf16) :=
  [⟨Rect.unit (s := S384x4096) ![192, 0] S192x4096.size inb_S384x4096_S192x4096_192_0, k0_pay9 (k0_pay2 v3) x1k⟩,
   ⟨Rect.unit (s := S384x4096) ![0, 0] S192x4096.size inb_S384x4096_S192x4096_0_0, k0_pay8 (k0_pay2 v3) x0k x1k⟩]

/-- The left operand of one trip, as the two stores leave it. -/
def lhsOf (v3 : Vec F S192x4096 .i32) (x0k : Vec F S1x1x4096 .f32) (x1k : Vec F S1x1x4096 .i32) : Vec F S384x4096 .bf16 :=
  View.canon (lhsPieces v3 x0k x1k)

/-- One trip of the loop on the accumulator. -/
def tripFn (v3 : Vec F S192x4096 .i32) (v5 : Vec F S256x4096 .i32) (x0 : Vec F S1x1x32768 .f32) (x1 : Vec F S1x1x32768 .i32)
    (k : Fin k0_t1_loop.trips) (acc : Vec F S384x256 .f32) : Vec F S384x256 .f32 :=
  k0_pay4 (k0_pay10 (k0_pay3 v5) (ldk x1 k) (lhsOf v3 (ldk x0 k) (ldk x1 k)) acc)

/-- The accumulator after the first `n` trips, from `acc0`. -/
def accK (v3 : Vec F S192x4096 .i32) (v5 : Vec F S256x4096 .i32) (x0 : Vec F S1x1x32768 .f32) (x1 : Vec F S1x1x32768 .i32)
    (acc0 : Vec F S384x256 .f32) : ℕ → Vec F S384x256 .f32
  | 0 => acc0
  | n + 1 => if h : n < k0_t1_loop.trips then tripFn v3 v5 x0 x1 ⟨n, h⟩ (accK v3 v5 x0 x1 acc0 n) else accK v3 v5 x0 x1 acc0 n

/-- Offsets `[0, 0]` are the zero offsets. -/
theorem hz2 : (![0, 0] : Fin 2 → ℕ) = fun _ => 0 := funext fun a => by fin_cases a <;> rfl

/-- The two stores tile the left operand. -/
theorem lhs_cover (v3 : Vec F S192x4096 .i32) (x0k : Vec F S1x1x4096 .f32) (x1k : Vec F S1x1x4096 .i32) (y : S384x4096.Idx) :
    ∃ p ∈ lhsPieces v3 x0k x1k, y ∈ p.1.set :=
  View.cover_of_tiledL (lhsPieces v3 x0k x1k) S192x4096.size (by sl_kernel_rfl) y

set_option maxHeartbeats 4000000 in
/-- One trip's store into the accumulator: the whole accumulator, at the one-trip function of what the trip read. -/
theorem trip_fst (𝒱 : Variants) (c : Dev nD) (bd : Option 𝒱.V) (i : grid0.Coords) (arg2 : Memref sig .tc .vmem S1x1x32768 .f32) (harg2 : arg2.IsWhole) (arg3 : Memref sig .tc .vmem S1x1x32768 .i32) (harg3 : arg3.IsWhole) (arg4 : Memref sig .tc .vmem S192x4096 .i32) (harg4 : arg4.IsWhole) (arg5 : Memref sig .tc .vmem S256x4096 .i32) (harg5 : arg5.IsWhole) (arg6 : Memref sig .tc .vmem S1x192x256 .f32) (harg6 : arg6.IsWhole) (arg7 : Memref sig .tc .vmem S384x256 .f32) (harg7 : arg7.IsWhole) (arg8 : Memref sig .tc .vmem S384x4096 .bf16) (harg8 : arg8.IsWhole)
    (v3 : Vec F S192x4096 .i32) (v5 : Vec F S256x4096 .i32) (x0 : Vec F S1x1x32768 .f32) (x1 : Vec F S1x1x32768 .i32)
    (k : Fin k0_t1_loop.trips) (f7 : BufTy.Contents (Elt F) arg7.view.ty) (f8 : BufTy.Contents (Elt F) arg8.view.ty) :
    (trip_k0_t1 (F := F) 𝒱 c bd i arg2 harg2 arg3 harg3 arg4 harg4 arg5 harg5 arg6 harg6 arg7 harg7 arg8 harg8 v3 v5 (harg2.unread x0) (harg3.unread x1) k).1 f7 f8
      = [⟨Rect.unit (s := S384x256) ![0, 0] ![384, 256] inb_S384x256_S384x256_0_0, tripFn v3 v5 x0 x1 k (arg7.view.read (Elt F) f7)⟩] := by
  unfold trip_k0_t1
  dsimp only
  sl_unfold_run_names
  unfold tripFn lhsOf
  simp only [View.readAt_eq_ld, harg2.read_unread, harg3.read_unread]
  rw [View.readCov_eq_canon_ld arg8.view _ _ (lhs_cover v3 (ldk x0 k) (ldk x1 k)),
    View.ld_unit_zero (S := S384x4096) hz2, View.ld_unit_zero (S := S384x256) hz2]

/-- A store of the whole accumulator, last, leaves its payload. -/
theorem read_writes_whole (arg7 : Memref sig .tc .vmem S384x256 .f32) (G : BufTy.Contents (Elt F) arg7.view.ty)
    (w : Vec F S384x256 .f32) (L : List (View.Piece (Elt F) S384x256 .f32)) :
    arg7.view.read (Elt F) (arg7.view.writes (Elt F) G
      ((⟨Rect.unit (s := S384x256) ![0, 0] ![384, 256] inb_S384x256_S384x256_0_0, w⟩ : View.Piece (Elt F) S384x256 .f32) :: L)) = w := by
  have hc : ∀ y : S384x256.Idx, ∃ p ∈ ((⟨Rect.unit (s := S384x256) ![0, 0] ![384, 256] inb_S384x256_S384x256_0_0, w⟩ : View.Piece (Elt F) S384x256 .f32) :: L), y ∈ p.1.set := by
    intro y
    obtain ⟨p, hp, hy⟩ := View.cover_of_tiledL [(⟨Rect.unit (s := S384x256) ![0, 0] ![384, 256] inb_S384x256_S384x256_0_0, w⟩ : View.Piece (Elt F) S384x256 .f32)] S384x256.size (by sl_kernel_rfl) y
    exact ⟨p, List.mem_cons.2 (Or.inl (List.mem_singleton.1 hp)), hy⟩
  rw [View.read_writes_eq_canon _ _ _ hc]
  exact View.canon_cons_unit_zero (S := S384x256) hz2 inb_S384x256_S384x256_0_0 w L

set_option maxHeartbeats 4000000 in
/-- The accumulator after the loop's first `n` trips is the fold of the one-trip function from what the loop found. -/
theorem pb_val (𝒱 : Variants) (c : Dev nD) (bd : Option 𝒱.V) (i : grid0.Coords) (arg2 : Memref sig .tc .vmem S1x1x32768 .f32) (harg2 : arg2.IsWhole) (arg3 : Memref sig .tc .vmem S1x1x32768 .i32) (harg3 : arg3.IsWhole) (arg4 : Memref sig .tc .vmem S192x4096 .i32) (harg4 : arg4.IsWhole) (arg5 : Memref sig .tc .vmem S256x4096 .i32) (harg5 : arg5.IsWhole) (arg6 : Memref sig .tc .vmem S1x192x256 .f32) (harg6 : arg6.IsWhole) (arg7 : Memref sig .tc .vmem S384x256 .f32) (harg7 : arg7.IsWhole) (arg8 : Memref sig .tc .vmem S384x4096 .bf16) (harg8 : arg8.IsWhole)
    (v3 : Vec F S192x4096 .i32) (v5 : Vec F S256x4096 .i32) (x0 : Vec F S1x1x32768 .f32) (x1 : Vec F S1x1x32768 .i32)
    (G7 : BufTy.Contents (Elt F) arg7.view.ty) (G8 : BufTy.Contents (Elt F) arg8.view.ty) :
    ∀ n, n ≤ k0_t1_loop.trips →
      arg7.view.read (Elt F) (arg7.view.writes (Elt F) G7
        (pb_k0_t1 (F := F) 𝒱 c bd i arg2 harg2 arg3 harg3 arg4 harg4 arg5 harg5 arg6 harg6 arg7 harg7 arg8 harg8 v3 v5 (harg2.unread x0) (harg3.unread x1) G7 G8 n).1)
        = accK v3 v5 x0 x1 (arg7.view.read (Elt F) G7) n := by
  intro n
  induction n with
  | zero => intro _; rfl
  | succ n ih =>
    intro hn
    have hlt : n < k0_t1_loop.trips := hn
    have e := pb_k0_t1_succ (F := F) 𝒱 c bd i arg2 harg2 arg3 harg3 arg4 harg4 arg5 harg5 arg6 harg6 arg7 harg7 arg8 harg8 v3 v5 (harg2.unread x0) (harg3.unread x1) G7 G8 ⟨n, hlt⟩
    simp only at e
    rw [e]
    simp only
    rw [trip_fst, List.singleton_append, read_writes_whole, ih (Nat.le_of_lt hlt)]
    show _ = (if h : n < k0_t1_loop.trips then tripFn v3 v5 x0 x1 ⟨n, h⟩ (accK v3 v5 x0 x1 (arg7.view.read (Elt F) G7) n) else _)
    rw [dif_pos hlt]

end Cert.KernelIdeal.Body

end
-- ==== Proof.BodyRuns.lean ====
/-
  The kernel body at one grid point, in each of its three cases.

  At the first point of a row the body zeroes the accumulator and runs the loop; at the points between it runs the
  loop on what the point before left; at the last point of a row it runs the loop and then stores, into the output
  block, the upper half of the accumulator divided by the lower half clamped below at one.  In every case the
  input blocks are left as found and the accumulator ends at the fold of the one-trip function over the trips.
-/
import proofs.«430517_j86431921865188_3_alg».proof.Proof.BodyDefs
import proofs.«430517_j86431921865188_3_alg».proof.Proof.LoopVal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after one point's loop, from `acc0`: the fold of the one-trip function over all the trips. -/
def accLoop (x0 : Vec F S1x1x32768 .f32) (x1 : Vec F S1x1x32768 .i32) (x2 : Vec F S192x4096 .i32) (x3 : Vec F S256x4096 .i32)
    (acc0 : Vec F S384x256 .f32) : Vec F S384x256 .f32 :=
  accK x2 x3 x0 x1 acc0 k0_t1_loop.trips

/-- The output block from the accumulator: rows 0–191 over rows 192–383 clamped below at one. -/
def outOf (acc : Vec F S384x256 .f32) : Vec F S1x192x256 .f32 :=
  k0_pay5 (View.ld acc (Rect.unit (s := S384x256) ![0, 0] S192x256.size inb_S384x256_S192x256_0_0))
    (View.ld acc (Rect.unit (s := S384x256) ![192, 0] S192x256.size inb_S384x256_S192x256_192_0))

/-- Offsets `[0, 0, 0]` are the zero offsets. -/
theorem hz3 : (![0, 0, 0] : Fin 3 → ℕ) = fun _ => 0 := funext fun a => by fin_cases a <;> rfl

/-- A store of the whole output block, last, leaves its payload. -/
theorem read_writes_whole6 (arg6 : Memref sig .tc .vmem S1x192x256 .f32) (G : BufTy.Contents (Elt F) arg6.view.ty)
    (w : Vec F S1x192x256 .f32) (L : List (View.Piece (Elt F) S1x192x256 .f32)) :
    arg6.view.read (Elt F) (arg6.view.writes (Elt F) G
      ((⟨Rect.unit (s := S1x192x256) ![0, 0, 0] S1x192x256.size inb_S1x192x256_S1x192x256_0_0_0, w⟩ : View.Piece (Elt F) S1x192x256 .f32) :: L)) = w := by
  have hc : ∀ y : S1x192x256.Idx, ∃ p ∈ ((⟨Rect.unit (s := S1x192x256) ![0, 0, 0] S1x192x256.size inb_S1x192x256_S1x192x256_0_0_0, w⟩ : View.Piece (Elt F) S1x192x256 .f32) :: L), y ∈ p.1.set := by
    intro y
    obtain ⟨p, hp, hy⟩ := View.cover_of_tiledL [(⟨Rect.unit (s := S1x192x256) ![0, 0, 0] S1x192x256.size inb_S1x192x256_S1x192x256_0_0_0, w⟩ : View.Piece (Elt F) S1x192x256 .f32)] S1x192x256.size (by sl_kernel_rfl) y
    exact ⟨p, List.mem_cons.2 (Or.inl (List.mem_singleton.1 hp)), hy⟩
  rw [View.read_writes_eq_canon _ _ _ hc]
  exact View.canon_cons_unit_zero (S := S1x192x256) hz3 inb_S1x192x256_S1x192x256_0_0_0 w L

set_option maxHeartbeats 4000000 in
/-- First point of a row: the accumulator, found at anything, ends at the loop's fold from zero; the output block is not touched. -/
theorem runA (c : Dev nD) (i : grid0.Coords) (arg2 : Memref sig .tc .vmem S1x1x32768 .f32) (harg2 : arg2.IsWhole) (arg3 : Memref sig .tc .vmem S1x1x32768 .i32) (harg3 : arg3.IsWhole) (arg4 : Memref sig .tc .vmem S192x4096 .i32) (harg4 : arg4.IsWhole) (arg5 : Memref sig .tc .vmem S256x4096 .i32) (harg5 : arg5.IsWhole) (arg6 : Memref sig .tc .vmem S1x192x256 .f32) (harg6 : arg6.IsWhole) (arg7 : Memref sig .tc .vmem S384x256 .f32) (harg7 : arg7.IsWhole) (arg8 : Memref sig .tc .vmem S384x4096 .bf16) (harg8 : arg8.IsWhole)
    (hc0 : cond0_0 i) (hc1 : ¬cond0_1 i)
    (x0 : Vec F S1x1x32768 .f32) (x1 : Vec F S1x1x32768 .i32) (x2 : Vec F S192x4096 .i32) (x3 : Vec F S256x4096 .i32)
    (xi4 : Vec F S1x192x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (accLoop x0 x1 x2 x3 k0_pay1) ∗ (∃ d, owns (c : Thread nD τ) arg8 fullShare d)) -∗ K ⟨⟩))
      ⊢ wp frame (wpE (defs₀ (F := F)) Variants.none c none) E (cc0__segment_kernel i arg2 harg2 arg3 harg3 arg4 harg4 arg5 harg5 arg6 harg6 arg7 harg7 arg8 harg8) K := by
  simp only [cc0__segment_kernel_eq_skeleton]; unfold cc0__segment_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, Hk⟩
  obtain rfl := harg2.eq_unread hf2; obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    swap; · iexact H7
    ipureintro
    rw [View.writes_append]
    simp only [View.readAt_eq_ld, harg4.read_unread, harg5.read_unread,
      View.ld_unit_zero (S := S192x4096) hz2, View.ld_unit_zero (S := S256x4096) hz2]
    exact (pb_val Variants.none c none i arg2 harg2 arg3 harg3 arg4 harg4 arg5 harg5 arg6 harg6 arg7 harg7 arg8 harg8 x2 x3 x0 x1 _ f8 _ (le_refl _)).trans (by sl_unfold_run_names; rw [read_writes_whole]; rfl)
  iexists _; iexists _; isplitr
  swap; · iexact H8
  ipureintro; rfl

set_option maxHeartbeats 4000000 in
/-- A point between: the accumulator, found at `xs0`, ends at the loop's fold from `xs0`; the output block is not touched. -/
theorem runB (c : Dev nD) (i : grid0.Coords) (arg2 : Memref sig .tc .vmem S1x1x32768 .f32) (harg2 : arg2.IsWhole) (arg3 : Memref sig .tc .vmem S1x1x32768 .i32) (harg3 : arg3.IsWhole) (arg4 : Memref sig .tc .vmem S192x4096 .i32) (harg4 : arg4.IsWhole) (arg5 : Memref sig .tc .vmem S256x4096 .i32) (harg5 : arg5.IsWhole) (arg6 : Memref sig .tc .vmem S1x192x256 .f32) (harg6 : arg6.IsWhole) (arg7 : Memref sig .tc .vmem S384x256 .f32) (harg7 : arg7.IsWhole) (arg8 : Memref sig .tc .vmem S384x4096 .bf16) (harg8 : arg8.IsWhole)
    (hc0 : ¬cond0_0 i) (hc1 : ¬cond0_1 i)
    (x0 : Vec F S1x1x32768 .f32) (x1 : Vec F S1x1x32768 .i32) (x2 : Vec F S192x4096 .i32) (x3 : Vec F S256x4096 .i32)
    (xi4 : Vec F S1x192x256 .f32) (xs0 : Vec F S384x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs0 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (accLoop x0 x1 x2 x3 xs0) ∗ (∃ d, owns (c : Thread nD τ) arg8 fullShare d)) -∗ K ⟨⟩))
      ⊢ wp frame (wpE (defs₀ (F := F)) Variants.none c none) E (cc0__segment_kernel i arg2 harg2 arg3 harg3 arg4 harg4 arg5 harg5 arg6 harg6 arg7 harg7 arg8 harg8) K := by
  simp only [cc0__segment_kernel_eq_skeleton]; unfold cc0__segment_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    swap; · iexact H7
    ipureintro
    simp only [View.readAt_eq_ld, harg4.read_unread, harg5.read_unread,
      View.ld_unit_zero (S := S192x4096) hz2, View.ld_unit_zero (S := S256x4096) hz2]
    exact (pb_val Variants.none c none i arg2 harg2 arg3 harg3 arg4 harg4 arg5 harg5 arg6 harg6 arg7 harg7 arg8 harg8 x2 x3 x0 x1 (harg7.unread xs0) f8 _ (le_refl _)).trans (by rw [harg7.read_unread]; rfl)
  iexists _; iexists _; isplitr
  swap; · iexact H8
  ipureintro; rfl

set_option maxHeartbeats 4000000 in
/-- Last point of a row: as between, and the output block, found at anything, ends at the quotient of the accumulator's halves. -/
theorem runC (c : Dev nD) (i : grid0.Coords) (arg2 : Memref sig .tc .vmem S1x1x32768 .f32) (harg2 : arg2.IsWhole) (arg3 : Memref sig .tc .vmem S1x1x32768 .i32) (harg3 : arg3.IsWhole) (arg4 : Memref sig .tc .vmem S192x4096 .i32) (harg4 : arg4.IsWhole) (arg5 : Memref sig .tc .vmem S256x4096 .i32) (harg5 : arg5.IsWhole) (arg6 : Memref sig .tc .vmem S1x192x256 .f32) (harg6 : arg6.IsWhole) (arg7 : Memref sig .tc .vmem S384x256 .f32) (harg7 : arg7.IsWhole) (arg8 : Memref sig .tc .vmem S384x4096 .bf16) (harg8 : arg8.IsWhole)
    (hc0 : ¬cond0_0 i) (hc1 : cond0_1 i)
    (x0 : Vec F S1x1x32768 .f32) (x1 : Vec F S1x1x32768 .i32) (x2 : Vec F S192x4096 .i32) (x3 : Vec F S256x4096 .i32)
    (xs0 : Vec F S384x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs0 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (outOf (accLoop x0 x1 x2 x3 xs0)) ∗ owns (c : Thread nD τ) arg7 fullShare (accLoop x0 x1 x2 x3 xs0) ∗ (∃ d, owns (c : Thread nD τ) arg8 fullShare d)) -∗ K ⟨⟩))
      ⊢ wp frame (wpE (defs₀ (F := F)) Variants.none c none) E (cc0__segment_kernel i arg2 harg2 arg3 harg3 arg4 harg4 arg5 harg5 arg6 harg6 arg7 harg7 arg8 harg8) K := by
  simp only [cc0__segment_kernel_eq_skeleton]; unfold cc0__segment_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%f7, %hf7, H7⟩, ⟨%d8, %f8, %hf8, H8⟩, Hk⟩
  obtain rfl := harg2.eq_unread hf2; obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    swap; · iexact H6
    ipureintro
    rw [read_writes_whole6]
    sl_unfold_run_names
    unfold outOf accLoop
    simp only [View.readAt_eq_ld, harg4.read_unread, harg5.read_unread,
      View.ld_unit_zero (S := S192x4096) hz2, View.ld_unit_zero (S := S256x4096) hz2]
    rw [pb_val Variants.none c none i arg2 harg2 arg3 harg3 arg4 harg4 arg5 harg5 arg6 harg6 arg7 harg7 arg8 harg8 x2 x3 x0 x1 (harg7.unread xs0) f8 _ (le_refl _), harg7.read_unread]
  isplitl [H7]
  · iexists _; isplitr
    swap; · iexact H7
    ipureintro
    simp only [View.readAt_eq_ld, harg4.read_unread, harg5.read_unread,
      View.ld_unit_zero (S := S192x4096) hz2, View.ld_unit_zero (S := S256x4096) hz2]
    exact (pb_val Variants.none c none i arg2 harg2 arg3 harg3 arg4 harg4 arg5 harg5 arg6 harg6 arg7 harg7 arg8 harg8 x2 x3 x0 x1 (harg7.unread xs0) f8 _ (le_refl _)).trans (by rw [harg7.read_unread]; rfl)
  iexists _; iexists _; isplitr
  swap; · iexact H8
  ipureintro; rfl

end Cert.KernelIdeal.Body

end
-- ==== Proof.BodyFrame.lean ====
/-
  The frame of the kernel: point by point over the grid of 8 × 16 points, what the accumulator and the output block hold,
  and that every input array ends as it was found.

  Within a row of 16 points the accumulator is cleared at the first point and then, at every point, run through the
  loop on that point's blocks; so after point t it holds the loop's fold over the points of t's row up to t, started
  from zero.  The output block is stored only at the last point of a row, from the accumulator as that point leaves
  it, and is written back there; elsewhere the output window is idle and its buffer is handed back untouched.  The
  invariant carried from point to point names the accumulator's contents (after the first point) and leaves the
  other scratch buffer and the random-number register at anything.
-/
import proofs.«430517_j86431921865188_3_alg».proof.Proof.BodyRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds after each point -/

/-- THE ACCUMULATION. The accumulator after the body at position `n`: the loop's fold on that point's four input
    blocks, started from zero at the first point of a row (n ≡ 0 mod 16) and from what the point before left otherwise. -/
def accAt (c : Dev nD) : (n : ℕ) → n < cfg0.N → Vec F S384x256 .f32
  | 0, hn => accLoop (iblk m c 0 ⟨0, hn⟩) (iblk m c 1 ⟨0, hn⟩) (iblk m c 2 ⟨0, hn⟩) (iblk m c 3 ⟨0, hn⟩) k0_pay1
  | n + 1, hn => accLoop (iblk m c 0 ⟨n + 1, hn⟩) (iblk m c 1 ⟨n + 1, hn⟩) (iblk m c 2 ⟨n + 1, hn⟩) (iblk m c 3 ⟨n + 1, hn⟩)
      (if (n + 1) % 16 = 0 then k0_pay1 else accAt c n (Nat.lt_of_succ_lt hn))

/-- At the first point of a row the fold starts from zero. -/
theorem accAt_first (c : Dev nD) (t : Fin cfg0.N) (h : t.val % 16 = 0) :
    accAt m c t.val t.isLt = accLoop (iblk m c 0 t) (iblk m c 1 t) (iblk m c 2 t) (iblk m c 3 t) k0_pay1 := by
  obtain ⟨n, hn⟩ := t
  cases n with
  | zero => rfl
  | succ n =>
    show accLoop _ _ _ _ (if (n + 1) % 16 = 0 then k0_pay1 else accAt m c n _) = _
    rw [if_pos h]

/-- At any other point it starts from what the point before left. -/
theorem accAt_next (c : Dev nD) (t : Fin cfg0.N) (h : ¬t.val % 16 = 0) :
    accAt m c t.val t.isLt = accLoop (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h
  | succ n =>
    show accLoop _ _ _ _ (if (n + 1) % 16 = 0 then k0_pay1 else accAt m c n _) = _
    rw [if_neg h]
    rfl

/-- The invariant before position `n`: before the first point every scratch buffer at anything; afterwards the
    accumulator at what the point before left in it, the other scratch buffer at anything, and the random-number
    register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulator at that point's contents. -/
theorem PhiS_succ (c : Dev nD) (n : ℕ) (hn : n < cfg0.N) :
    PhiS m c (n + 1) hn = iprop(iprop(owns (c : Thread nD τ) scM0_0 fullShare (accAt m c n hn) ∗ (∃ d, owns (c : Thread nD τ) scM0_1 fullShare d)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare (accAt m c (n - 1) (by omega)) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at the quotient of the accumulator's halves as that point leaves
    it; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (accAt m c t.val t.isLt)
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outOf (accAt m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, the core's debt, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point.  The inputs' buffers hold their blocks; the point is the first of its row, the last, or
    between, and the corresponding run applies: the invariant hands the body the accumulator at what the point before
    left (at anything at the first point of the grid), the other scratch buffer and the register at anything, and takes
    the accumulator back at this point's contents; away from a row's last point the output buffer goes through
    untouched, at the last it ends at the quotient of the accumulator's halves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 16 = 0
  · -- first point of a row
    have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dats m 0 c) 4 t (idleAt0_4 t hc1) (noFlush0_4 t hc1)]
    rw [accAt_first m c t h0]
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    have hc0 : ¬cond0_0 (grid0.coords t) := fun h => h0 ((hcond0_0 t).mp h)
    by_cases h1 : t.val % 16 = 15
    · -- last point of a row
      have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [accAt_next m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · -- a point between
      have hc1 : ¬cond0_1 (grid0.coords t) := fun h => h1 ((hcond0_1 t).mp h)
      rw [Dat.leavesExact_idle (dats m 0 c) 4 t (idleAt0_4 t hc1) (noFlush0_4 t hc1)]
      rw [accAt_next m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but none the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- At the compiled mesh, for any values, from any memory with zero counters: every weakly fair execution of the
    program on the TensorCores terminates, and every final state has every array of the pipeline at what the proof data
    say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: every execution terminates and leaves both argument arrays as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelBits.BodyDefs.lean ====
/-
  What the proofs about the kernel body share: the body's two branch conditions, decided over the grid of
  8 × 16 = 128 points (point t has coordinates (t / 16, t % 16)); where each window is in use and where the output
  window is written back; the staging and scratch memrefs the body is called on at a point; and the invariant the body
  is handed and gives back, opened into the two scratch buffers owned at some contents and the random-number register.

  The first branch (clear the accumulator) is taken where the second coordinate is 0, that is at the points
  t ≡ 0 (mod 16); the second (divide and store the output block) where it is 15, at the points t ≡ 15 (mod 16).
  The four inputs are in use at every point; the output window is in use, and written back, exactly at the points of the
  second branch.
-/
import proofs.«430517_j86431921865188_3_alg».proof.Proof.Gen.Kernel.Frame
import proofs.«430517_j86431921865188_3_alg».proof.Proof.Gen.Kernel.Loops
import proofs.«430517_j86431921865188_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first branch, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds at the points t ≡ 0 (mod 16): decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second branch, from the grid coordinates: the second coordinate is 15. -/
abbrev cond0_1 (i : grid0.Coords) : Prop := k0_cond2 i = 1#1
/-- It holds at the points t ≡ 15 (mod 16): decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Away from the second branch the output window is idle: the body stores nothing into it. -/
theorem idleAt0_4 : ∀ t : Fin cfg0.N, ¬cond0_1 (grid0.coords t) → cfg0.idle 4 (grid0.coords t) = true := by decide +kernel
/-- Away from the second branch the output block is not written back. -/
theorem noFlush0_4 : ∀ t : Fin cfg0.N, ¬cond0_1 (grid0.coords t) → (cfg0.win 4).flush t = false := by decide +kernel
/-- At the points of the second branch the output window is live: the body stores into it. -/
theorem liveAt0_4 : ∀ t : Fin cfg0.N, cond0_1 (grid0.coords t) → cfg0.idle 4 (grid0.coords t) = false := by decide +kernel

/-! ## The kernel body on its staging and scratch memrefs -/

/-- Each window's current staging memref at point `t`, spelled as the body is called on it, and its wholeness. -/
abbrev ms0_0 (t : Fin cfg0.N) : Memref sig .tc .vmem S1x1x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x4096 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x192x256 .f32 := win0_4.stage (cfg0.slots t 4)
abbrev hs0_4 (t : Fin cfg0.N) : (ms0_4 t).IsWhole := hstage0_4 ((cfg0.slots t 4).cast nbuf0_4)
/-- The scratch operands: whole buffers of the kernel's own, carried from point to point beside the windows
    (the accumulator, 384 × 256, and the stacked one-hot rows, 384 × 4096). -/
abbrev scM0_0 : Memref sig .tc .vmem S384x256 .f32 := Memref.whole cc0_scratch0
abbrev scM0_1 : Memref sig .tc .vmem S384x4096 .bf16 := Memref.whole cc0_scratch1

/-- The invariant carried between points, with the two scratch operands as memrefs owned at some contents: what the
    body is handed and what it gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body at point `t` is the kernel on these memrefs. -/
theorem bodyAt0_eq (t : Fin cfg0.N) :
    bodyAt0 (F := F) t = cc0__segment_kernel (grid0.coords t) (ms0_0 t) (hs0_0 t) (ms0_1 t) (hs0_1 t) (ms0_2 t) (hs0_2 t)
      (ms0_3 t) (hs0_3 t) (ms0_4 t) (hs0_4 t) scM0_0 (Memref.isWhole_whole _) scM0_1 (Memref.isWhole_whole _) := rfl

end Cert.Kernel.Body

end
-- ==== Proof.KernelBits.LoopVal.lean ====
/-
  The accumulator after the body's counted loop, as a function of what the loop read.

  One trip reads its 4096 samples of the value block and of the pixel block, builds the left operand
  (two stacked halves, each a row test against the pixel's high digit), multiplies it into the one-hot of the low
  digit, and adds the product to the accumulator.  The accumulator after the trips is therefore the fold of that
  one-trip function over the trips, started from what the loop found.
-/
import proofs.«430517_j86431921865188_3_alg».proof.Proof.Gen.Kernel.Frame
import proofs.«430517_j86431921865188_3_alg».proof.Proof.Gen.Kernel.Loops
import proofs.«430517_j86431921865188_3_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Trip `k`'s samples of a block of 32768: those numbered 4096 k and up. -/
abbrev ldk {e : EltTy} (x : Vec F S1x1x32768 e) (k : Fin k0_t1_loop.trips) : Vec F S1x1x4096 e :=
  View.ld x (Rect.unit (s := S1x1x32768) (k0_off1 k) S1x1x4096.size (k0_off1_inb k))

/-- The two stores that fill the left operand in one trip: the weighted half on rows 0–191, the plain half on rows 192–383. -/
abbrev lhsPieces (v3 : Vec F S192x4096 .i32) (x0k : Vec F S1x1x4096 .f32) (x1k : Vec F S1x1x4096 .i32) :
    List (View.Piece (Elt F) S384x4096 .bf16) :=
  [⟨Rect.unit (s := S384x4096) ![192, 0] S192x4096.size inb_S384x4096_S192x4096_192_0, k0_pay9 (k0_pay2 v3) x1k⟩,
   ⟨Rect.unit (s := S384x4096) ![0, 0] S192x4096.size inb_S384x4096_S192x4096_0_0, k0_pay8 (k0_pay2 v3) x0k x1k⟩]

/-- The left operand of one trip, as the two stores leave it. -/
def lhsOf (v3 : Vec F S192x4096 .i32) (x0k : Vec F S1x1x4096 .f32) (x1k : Vec F S1x1x4096 .i32) : Vec F S384x4096 .bf16 :=
  View.canon (lhsPieces v3 x0k x1k)

/-- One trip of the loop on the accumulator. -/
def tripFn (v3 : Vec F S192x4096 .i32) (v5 : Vec F S256x4096 .i32) (x0 : Vec F S1x1x32768 .f32) (x1 : Vec F S1x1x32768 .i32)
    (k : Fin k0_t1_loop.trips) (acc : Vec F S384x256 .f32) : Vec F S384x256 .f32 :=
  k0_pay4 (k0_pay10 (k0_pay3 v5) (ldk x1 k) (lhsOf v3 (ldk x0 k) (ldk x1 k)) acc)

/-- The accumulator after the first `n` trips, from `acc0`. -/
def accK (v3 : Vec F S192x4096 .i32) (v5 : Vec F S256x4096 .i32) (x0 : Vec F S1x1x32768 .f32) (x1 : Vec F S1x1x32768 .i32)
    (acc0 : Vec F S384x256 .f32) : ℕ → Vec F S384x256 .f32
  | 0 => acc0
  | n + 1 => if h : n < k0_t1_loop.trips then tripFn v3 v5 x0 x1 ⟨n, h⟩ (accK v3 v5 x0 x1 acc0 n) else accK v3 v5 x0 x1 acc0 n

/-- Offsets `[0, 0]` are the zero offsets. -/
theorem hz2 : (![0, 0] : Fin 2 → ℕ) = fun _ => 0 := funext fun a => by fin_cases a <;> rfl

/-- The two stores tile the left operand. -/
theorem lhs_cover (v3 : Vec F S192x4096 .i32) (x0k : Vec F S1x1x4096 .f32) (x1k : Vec F S1x1x4096 .i32) (y : S384x4096.Idx) :
    ∃ p ∈ lhsPieces v3 x0k x1k, y ∈ p.1.set :=
  View.cover_of_tiledL (lhsPieces v3 x0k x1k) S192x4096.size (by sl_kernel_rfl) y

set_option maxHeartbeats 4000000 in
/-- One trip's store into the accumulator: the whole accumulator, at the one-trip function of what the trip read. -/
theorem trip_fst (𝒱 : Variants) (c : Dev nD) (bd : Option 𝒱.V) (i : grid0.Coords) (arg2 : Memref sig .tc .vmem S1x1x32768 .f32) (harg2 : arg2.IsWhole) (arg3 : Memref sig .tc .vmem S1x1x32768 .i32) (harg3 : arg3.IsWhole) (arg4 : Memref sig .tc .vmem S192x4096 .i32) (harg4 : arg4.IsWhole) (arg5 : Memref sig .tc .vmem S256x4096 .i32) (harg5 : arg5.IsWhole) (arg6 : Memref sig .tc .vmem S1x192x256 .f32) (harg6 : arg6.IsWhole) (arg7 : Memref sig .tc .vmem S384x256 .f32) (harg7 : arg7.IsWhole) (arg8 : Memref sig .tc .vmem S384x4096 .bf16) (harg8 : arg8.IsWhole)
    (v3 : Vec F S192x4096 .i32) (v5 : Vec F S256x4096 .i32) (x0 : Vec F S1x1x32768 .f32) (x1 : Vec F S1x1x32768 .i32)
    (k : Fin k0_t1_loop.trips) (f7 : BufTy.Contents (Elt F) arg7.view.ty) (f8 : BufTy.Contents (Elt F) arg8.view.ty) :
    (trip_k0_t1 (F := F) 𝒱 c bd i arg2 harg2 arg3 harg3 arg4 harg4 arg5 harg5 arg6 harg6 arg7 harg7 arg8 harg8 v3 v5 (harg2.unread x0) (harg3.unread x1) k).1 f7 f8
      = [⟨Rect.unit (s := S384x256) ![0, 0] ![384, 256] inb_S384x256_S384x256_0_0, tripFn v3 v5 x0 x1 k (arg7.view.read (Elt F) f7)⟩] := by
  unfold trip_k0_t1
  dsimp only
  sl_unfold_run_names
  unfold tripFn lhsOf
  simp only [View.readAt_eq_ld, harg2.read_unread, harg3.read_unread]
  rw [View.readCov_eq_canon_ld arg8.view _ _ (lhs_cover v3 (ldk x0 k) (ldk x1 k)),
    View.ld_unit_zero (S := S384x4096) hz2, View.ld_unit_zero (S := S384x256) hz2]

/-- A store of the whole accumulator, last, leaves its payload. -/
theorem read_writes_whole (arg7 : Memref sig .tc .vmem S384x256 .f32) (G : BufTy.Contents (Elt F) arg7.view.ty)
    (w : Vec F S384x256 .f32) (L : List (View.Piece (Elt F) S384x256 .f32)) :
    arg7.view.read (Elt F) (arg7.view.writes (Elt F) G
      ((⟨Rect.unit (s := S384x256) ![0, 0] ![384, 256] inb_S384x256_S384x256_0_0, w⟩ : View.Piece (Elt F) S384x256 .f32) :: L)) = w := by
  have hc : ∀ y : S384x256.Idx, ∃ p ∈ ((⟨Rect.unit (s := S384x256) ![0, 0] ![384, 256] inb_S384x256_S384x256_0_0, w⟩ : View.Piece (Elt F) S384x256 .f32) :: L), y ∈ p.1.set := by
    intro y
    obtain ⟨p, hp, hy⟩ := View.cover_of_tiledL [(⟨Rect.unit (s := S384x256) ![0, 0] ![384, 256] inb_S384x256_S384x256_0_0, w⟩ : View.Piece (Elt F) S384x256 .f32)] S384x256.size (by sl_kernel_rfl) y
    exact ⟨p, List.mem_cons.2 (Or.inl (List.mem_singleton.1 hp)), hy⟩
  rw [View.read_writes_eq_canon _ _ _ hc]
  exact View.canon_cons_unit_zero (S := S384x256) hz2 inb_S384x256_S384x256_0_0 w L

set_option maxHeartbeats 4000000 in
/-- The accumulator after the loop's first `n` trips is the fold of the one-trip function from what the loop found. -/
theorem pb_val (𝒱 : Variants) (c : Dev nD) (bd : Option 𝒱.V) (i : grid0.Coords) (arg2 : Memref sig .tc .vmem S1x1x32768 .f32) (harg2 : arg2.IsWhole) (arg3 : Memref sig .tc .vmem S1x1x32768 .i32) (harg3 : arg3.IsWhole) (arg4 : Memref sig .tc .vmem S192x4096 .i32) (harg4 : arg4.IsWhole) (arg5 : Memref sig .tc .vmem S256x4096 .i32) (harg5 : arg5.IsWhole) (arg6 : Memref sig .tc .vmem S1x192x256 .f32) (harg6 : arg6.IsWhole) (arg7 : Memref sig .tc .vmem S384x256 .f32) (harg7 : arg7.IsWhole) (arg8 : Memref sig .tc .vmem S384x4096 .bf16) (harg8 : arg8.IsWhole)
    (v3 : Vec F S192x4096 .i32) (v5 : Vec F S256x4096 .i32) (x0 : Vec F S1x1x32768 .f32) (x1 : Vec F S1x1x32768 .i32)
    (G7 : BufTy.Contents (Elt F) arg7.view.ty) (G8 : BufTy.Contents (Elt F) arg8.view.ty) :
    ∀ n, n ≤ k0_t1_loop.trips →
      arg7.view.read (Elt F) (arg7.view.writes (Elt F) G7
        (pb_k0_t1 (F := F) 𝒱 c bd i arg2 harg2 arg3 harg3 arg4 harg4 arg5 harg5 arg6 harg6 arg7 harg7 arg8 harg8 v3 v5 (harg2.unread x0) (harg3.unread x1) G7 G8 n).1)
        = accK v3 v5 x0 x1 (arg7.view.read (Elt F) G7) n := by
  intro n
  induction n with
  | zero => intro _; rfl
  | succ n ih =>
    intro hn
    have hlt : n < k0_t1_loop.trips := hn
    have e := pb_k0_t1_succ (F := F) 𝒱 c bd i arg2 harg2 arg3 harg3 arg4 harg4 arg5 harg5 arg6 harg6 arg7 harg7 arg8 harg8 v3 v5 (harg2.unread x0) (harg3.unread x1) G7 G8 ⟨n, hlt⟩
    simp only at e
    rw [e]
    simp only
    rw [trip_fst, List.singleton_append, read_writes_whole, ih (Nat.le_of_lt hlt)]
    show _ = (if h : n < k0_t1_loop.trips then tripFn v3 v5 x0 x1 ⟨n, h⟩ (accK v3 v5 x0 x1 (arg7.view.read (Elt F) G7) n) else _)
    rw [dif_pos hlt]

end Cert.Kernel.Body

end
-- ==== Proof.KernelBits.BodyRuns.lean ====
/-
  The kernel body at one grid point, in each of its three cases.

  At the first point of a row the body zeroes the accumulator and runs the loop; at the points between it runs the
  loop on what the point before left; at the last point of a row it runs the loop and then stores, into the output
  block, the upper half of the accumulator divided by the lower half clamped below at one.  In every case the
  input blocks are left as found and the accumulator ends at the fold of the one-trip function over the trips.
-/
import proofs.«430517_j86431921865188_3_alg».proof.Proof.KernelBits.BodyDefs
import proofs.«430517_j86431921865188_3_alg».proof.Proof.KernelBits.LoopVal

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator after one point's loop, from `acc0`: the fold of the one-trip function over all the trips. -/
def accLoop (x0 : Vec F S1x1x32768 .f32) (x1 : Vec F S1x1x32768 .i32) (x2 : Vec F S192x4096 .i32) (x3 : Vec F S256x4096 .i32)
    (acc0 : Vec F S384x256 .f32) : Vec F S384x256 .f32 :=
  accK x2 x3 x0 x1 acc0 k0_t1_loop.trips

/-- The output block from the accumulator: rows 0–191 over rows 192–383 clamped below at one. -/
def outOf (acc : Vec F S384x256 .f32) : Vec F S1x192x256 .f32 :=
  k0_pay5 (View.ld acc (Rect.unit (s := S384x256) ![0, 0] S192x256.size inb_S384x256_S192x256_0_0))
    (View.ld acc (Rect.unit (s := S384x256) ![192, 0] S192x256.size inb_S384x256_S192x256_192_0))

/-- Offsets `[0, 0, 0]` are the zero offsets. -/
theorem hz3 : (![0, 0, 0] : Fin 3 → ℕ) = fun _ => 0 := funext fun a => by fin_cases a <;> rfl

/-- A store of the whole output block, last, leaves its payload. -/
theorem read_writes_whole6 (arg6 : Memref sig .tc .vmem S1x192x256 .f32) (G : BufTy.Contents (Elt F) arg6.view.ty)
    (w : Vec F S1x192x256 .f32) (L : List (View.Piece (Elt F) S1x192x256 .f32)) :
    arg6.view.read (Elt F) (arg6.view.writes (Elt F) G
      ((⟨Rect.unit (s := S1x192x256) ![0, 0, 0] S1x192x256.size inb_S1x192x256_S1x192x256_0_0_0, w⟩ : View.Piece (Elt F) S1x192x256 .f32) :: L)) = w := by
  have hc : ∀ y : S1x192x256.Idx, ∃ p ∈ ((⟨Rect.unit (s := S1x192x256) ![0, 0, 0] S1x192x256.size inb_S1x192x256_S1x192x256_0_0_0, w⟩ : View.Piece (Elt F) S1x192x256 .f32) :: L), y ∈ p.1.set := by
    intro y
    obtain ⟨p, hp, hy⟩ := View.cover_of_tiledL [(⟨Rect.unit (s := S1x192x256) ![0, 0, 0] S1x192x256.size inb_S1x192x256_S1x192x256_0_0_0, w⟩ : View.Piece (Elt F) S1x192x256 .f32)] S1x192x256.size (by sl_kernel_rfl) y
    exact ⟨p, List.mem_cons.2 (Or.inl (List.mem_singleton.1 hp)), hy⟩
  rw [View.read_writes_eq_canon _ _ _ hc]
  exact View.canon_cons_unit_zero (S := S1x192x256) hz3 inb_S1x192x256_S1x192x256_0_0_0 w L

set_option maxHeartbeats 4000000 in
/-- First point of a row: the accumulator, found at anything, ends at the loop's fold from zero; the output block is not touched. -/
theorem runA (c : Dev nD) (i : grid0.Coords) (arg2 : Memref sig .tc .vmem S1x1x32768 .f32) (harg2 : arg2.IsWhole) (arg3 : Memref sig .tc .vmem S1x1x32768 .i32) (harg3 : arg3.IsWhole) (arg4 : Memref sig .tc .vmem S192x4096 .i32) (harg4 : arg4.IsWhole) (arg5 : Memref sig .tc .vmem S256x4096 .i32) (harg5 : arg5.IsWhole) (arg6 : Memref sig .tc .vmem S1x192x256 .f32) (harg6 : arg6.IsWhole) (arg7 : Memref sig .tc .vmem S384x256 .f32) (harg7 : arg7.IsWhole) (arg8 : Memref sig .tc .vmem S384x4096 .bf16) (harg8 : arg8.IsWhole)
    (hc0 : cond0_0 i) (hc1 : ¬cond0_1 i)
    (x0 : Vec F S1x1x32768 .f32) (x1 : Vec F S1x1x32768 .i32) (x2 : Vec F S192x4096 .i32) (x3 : Vec F S256x4096 .i32)
    (xi4 : Vec F S1x192x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (accLoop x0 x1 x2 x3 k0_pay1) ∗ (∃ d, owns (c : Thread nD τ) arg8 fullShare d)) -∗ K ⟨⟩))
      ⊢ wp frame (wpE (defs₀ (F := F)) Variants.none c none) E (cc0__segment_kernel i arg2 harg2 arg3 harg3 arg4 harg4 arg5 harg5 arg6 harg6 arg7 harg7 arg8 harg8) K := by
  simp only [cc0__segment_kernel_eq_skeleton]; unfold cc0__segment_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, Hk⟩
  obtain rfl := harg2.eq_unread hf2; obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    swap; · iexact H7
    ipureintro
    rw [View.writes_append]
    simp only [View.readAt_eq_ld, harg4.read_unread, harg5.read_unread,
      View.ld_unit_zero (S := S192x4096) hz2, View.ld_unit_zero (S := S256x4096) hz2]
    exact (pb_val Variants.none c none i arg2 harg2 arg3 harg3 arg4 harg4 arg5 harg5 arg6 harg6 arg7 harg7 arg8 harg8 x2 x3 x0 x1 _ f8 _ (le_refl _)).trans (by sl_unfold_run_names; rw [read_writes_whole]; rfl)
  iexists _; iexists _; isplitr
  swap; · iexact H8
  ipureintro; rfl

set_option maxHeartbeats 4000000 in
/-- A point between: the accumulator, found at `xs0`, ends at the loop's fold from `xs0`; the output block is not touched. -/
theorem runB (c : Dev nD) (i : grid0.Coords) (arg2 : Memref sig .tc .vmem S1x1x32768 .f32) (harg2 : arg2.IsWhole) (arg3 : Memref sig .tc .vmem S1x1x32768 .i32) (harg3 : arg3.IsWhole) (arg4 : Memref sig .tc .vmem S192x4096 .i32) (harg4 : arg4.IsWhole) (arg5 : Memref sig .tc .vmem S256x4096 .i32) (harg5 : arg5.IsWhole) (arg6 : Memref sig .tc .vmem S1x192x256 .f32) (harg6 : arg6.IsWhole) (arg7 : Memref sig .tc .vmem S384x256 .f32) (harg7 : arg7.IsWhole) (arg8 : Memref sig .tc .vmem S384x4096 .bf16) (harg8 : arg8.IsWhole)
    (hc0 : ¬cond0_0 i) (hc1 : ¬cond0_1 i)
    (x0 : Vec F S1x1x32768 .f32) (x1 : Vec F S1x1x32768 .i32) (x2 : Vec F S192x4096 .i32) (x3 : Vec F S256x4096 .i32)
    (xi4 : Vec F S1x192x256 .f32) (xs0 : Vec F S384x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs0 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (accLoop x0 x1 x2 x3 xs0) ∗ (∃ d, owns (c : Thread nD τ) arg8 fullShare d)) -∗ K ⟨⟩))
      ⊢ wp frame (wpE (defs₀ (F := F)) Variants.none c none) E (cc0__segment_kernel i arg2 harg2 arg3 harg3 arg4 harg4 arg5 harg5 arg6 harg6 arg7 harg7 arg8 harg8) K := by
  simp only [cc0__segment_kernel_eq_skeleton]; unfold cc0__segment_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    swap; · iexact H7
    ipureintro
    simp only [View.readAt_eq_ld, harg4.read_unread, harg5.read_unread,
      View.ld_unit_zero (S := S192x4096) hz2, View.ld_unit_zero (S := S256x4096) hz2]
    exact (pb_val Variants.none c none i arg2 harg2 arg3 harg3 arg4 harg4 arg5 harg5 arg6 harg6 arg7 harg7 arg8 harg8 x2 x3 x0 x1 (harg7.unread xs0) f8 _ (le_refl _)).trans (by rw [harg7.read_unread]; rfl)
  iexists _; iexists _; isplitr
  swap; · iexact H8
  ipureintro; rfl

set_option maxHeartbeats 4000000 in
/-- Last point of a row: as between, and the output block, found at anything, ends at the quotient of the accumulator's halves. -/
theorem runC (c : Dev nD) (i : grid0.Coords) (arg2 : Memref sig .tc .vmem S1x1x32768 .f32) (harg2 : arg2.IsWhole) (arg3 : Memref sig .tc .vmem S1x1x32768 .i32) (harg3 : arg3.IsWhole) (arg4 : Memref sig .tc .vmem S192x4096 .i32) (harg4 : arg4.IsWhole) (arg5 : Memref sig .tc .vmem S256x4096 .i32) (harg5 : arg5.IsWhole) (arg6 : Memref sig .tc .vmem S1x192x256 .f32) (harg6 : arg6.IsWhole) (arg7 : Memref sig .tc .vmem S384x256 .f32) (harg7 : arg7.IsWhole) (arg8 : Memref sig .tc .vmem S384x4096 .bf16) (harg8 : arg8.IsWhole)
    (hc0 : ¬cond0_0 i) (hc1 : cond0_1 i)
    (x0 : Vec F S1x1x32768 .f32) (x1 : Vec F S1x1x32768 .i32) (x2 : Vec F S192x4096 .i32) (x3 : Vec F S256x4096 .i32)
    (xs0 : Vec F S384x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs0 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (outOf (accLoop x0 x1 x2 x3 xs0)) ∗ owns (c : Thread nD τ) arg7 fullShare (accLoop x0 x1 x2 x3 xs0) ∗ (∃ d, owns (c : Thread nD τ) arg8 fullShare d)) -∗ K ⟨⟩))
      ⊢ wp frame (wpE (defs₀ (F := F)) Variants.none c none) E (cc0__segment_kernel i arg2 harg2 arg3 harg3 arg4 harg4 arg5 harg5 arg6 harg6 arg7 harg7 arg8 harg8) K := by
  simp only [cc0__segment_kernel_eq_skeleton]; unfold cc0__segment_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%f7, %hf7, H7⟩, ⟨%d8, %f8, %hf8, H8⟩, Hk⟩
  obtain rfl := harg2.eq_unread hf2; obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    swap; · iexact H6
    ipureintro
    rw [read_writes_whole6]
    sl_unfold_run_names
    unfold outOf accLoop
    simp only [View.readAt_eq_ld, harg4.read_unread, harg5.read_unread,
      View.ld_unit_zero (S := S192x4096) hz2, View.ld_unit_zero (S := S256x4096) hz2]
    rw [pb_val Variants.none c none i arg2 harg2 arg3 harg3 arg4 harg4 arg5 harg5 arg6 harg6 arg7 harg7 arg8 harg8 x2 x3 x0 x1 (harg7.unread xs0) f8 _ (le_refl _), harg7.read_unread]
  isplitl [H7]
  · iexists _; isplitr
    swap; · iexact H7
    ipureintro
    simp only [View.readAt_eq_ld, harg4.read_unread, harg5.read_unread,
      View.ld_unit_zero (S := S192x4096) hz2, View.ld_unit_zero (S := S256x4096) hz2]
    exact (pb_val Variants.none c none i arg2 harg2 arg3 harg3 arg4 harg4 arg5 harg5 arg6 harg6 arg7 harg7 arg8 harg8 x2 x3 x0 x1 (harg7.unread xs0) f8 _ (le_refl _)).trans (by rw [harg7.read_unread]; rfl)
  iexists _; iexists _; isplitr
  swap; · iexact H8
  ipureintro; rfl

end Cert.Kernel.Body

end
-- ==== Proof.KernelBits.BodyFrame.lean ====
/-
  The frame of the kernel: point by point over the grid of 8 × 16 points, what the accumulator and the output block hold,
  and that every input array ends as it was found.

  Within a row of 16 points the accumulator is cleared at the first point and then, at every point, run through the
  loop on that point's blocks; so after point t it holds the loop's fold over the points of t's row up to t, started
  from zero.  The output block is stored only at the last point of a row, from the accumulator as that point leaves
  it, and is written back there; elsewhere the output window is idle and its buffer is handed back untouched.  The
  invariant carried from point to point names the accumulator's contents (after the first point) and leaves the
  other scratch buffer and the random-number register at anything.
-/
import proofs.«430517_j86431921865188_3_alg».proof.Proof.KernelBits.BodyRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds after each point -/

/-- THE ACCUMULATION. The accumulator after the body at position `n`: the loop's fold on that point's four input
    blocks, started from zero at the first point of a row (n ≡ 0 mod 16) and from what the point before left otherwise. -/
def accAt (c : Dev nD) : (n : ℕ) → n < cfg0.N → Vec F S384x256 .f32
  | 0, hn => accLoop (iblk m c 0 ⟨0, hn⟩) (iblk m c 1 ⟨0, hn⟩) (iblk m c 2 ⟨0, hn⟩) (iblk m c 3 ⟨0, hn⟩) k0_pay1
  | n + 1, hn => accLoop (iblk m c 0 ⟨n + 1, hn⟩) (iblk m c 1 ⟨n + 1, hn⟩) (iblk m c 2 ⟨n + 1, hn⟩) (iblk m c 3 ⟨n + 1, hn⟩)
      (if (n + 1) % 16 = 0 then k0_pay1 else accAt c n (Nat.lt_of_succ_lt hn))

/-- At the first point of a row the fold starts from zero. -/
theorem accAt_first (c : Dev nD) (t : Fin cfg0.N) (h : t.val % 16 = 0) :
    accAt m c t.val t.isLt = accLoop (iblk m c 0 t) (iblk m c 1 t) (iblk m c 2 t) (iblk m c 3 t) k0_pay1 := by
  obtain ⟨n, hn⟩ := t
  cases n with
  | zero => rfl
  | succ n =>
    show accLoop _ _ _ _ (if (n + 1) % 16 = 0 then k0_pay1 else accAt m c n _) = _
    rw [if_pos h]

/-- At any other point it starts from what the point before left. -/
theorem accAt_next (c : Dev nD) (t : Fin cfg0.N) (h : ¬t.val % 16 = 0) :
    accAt m c t.val t.isLt = accLoop (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h
  | succ n =>
    show accLoop _ _ _ _ (if (n + 1) % 16 = 0 then k0_pay1 else accAt m c n _) = _
    rw [if_neg h]
    rfl

/-- The invariant before position `n`: before the first point every scratch buffer at anything; afterwards the
    accumulator at what the point before left in it, the other scratch buffer at anything, and the random-number
    register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulator at that point's contents. -/
theorem PhiS_succ (c : Dev nD) (n : ℕ) (hn : n < cfg0.N) :
    PhiS m c (n + 1) hn = iprop(iprop(owns (c : Thread nD τ) scM0_0 fullShare (accAt m c n hn) ∗ (∃ d, owns (c : Thread nD τ) scM0_1 fullShare d)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare (accAt m c (n - 1) (by omega)) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at the quotient of the accumulator's halves as that point leaves
    it; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (accAt m c t.val t.isLt)
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outOf (accAt m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, the core's debt, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point.  The inputs' buffers hold their blocks; the point is the first of its row, the last, or
    between, and the corresponding run applies: the invariant hands the body the accumulator at what the point before
    left (at anything at the first point of the grid), the other scratch buffer and the register at anything, and takes
    the accumulator back at this point's contents; away from a row's last point the output buffer goes through
    untouched, at the last it ends at the quotient of the accumulator's halves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 16 = 0
  · -- first point of a row
    have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dats m 0 c) 4 t (idleAt0_4 t hc1) (noFlush0_4 t hc1)]
    rw [accAt_first m c t h0]
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    have hc0 : ¬cond0_0 (grid0.coords t) := fun h => h0 ((hcond0_0 t).mp h)
    by_cases h1 : t.val % 16 = 15
    · -- last point of a row
      have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [accAt_next m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · -- a point between
      have hc1 : ¬cond0_1 (grid0.coords t) := fun h => h1 ((hcond0_1 t).mp h)
      rw [Dat.leavesExact_idle (dats m 0 c) 4 t (idleAt0_4 t hc1) (noFlush0_4 t hc1)]
      rw [accAt_next m c t h0]
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but none the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- At the compiled mesh, for any values, from any memory with zero counters: every weakly fair execution of the
    program on the TensorCores terminates, and every final state has every array of the pipeline at what the proof data
    say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: every execution terminates and leaves both argument arrays as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelBlocks.lean ====
import proofs.«430517_j86431921865188_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Predicate
import Idealize.ShloMosaic.Lib.Tactic

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Tactic

variable (m : (ℓ : Loc nD τ sig) → Buf (Elt Ideal) ℓ)

/-! ## The arrays the region finds, as terms of the argument arrays -/

/-- The first windowed array is channel 0 of the values: slice, flatten, re-broadcast along a unit axis. -/
theorem V_v2_eq (c : Dev nD) :
    (V m c main_v2 : FVec Ideal S8x1x524288 .f32)
      = broadcastInDim S8x1x524288 ![0, 2] bcast_S8x524288_S8x1x524288_0_2
          (shapeCast S8x524288
            (extractStridedSlice S8x1x524288 ![0, 0, 0] (m ((c.tc : Thread nD τ).loc main_arg0) : FVec Ideal S8x16x524288 .f32)
              slices_S8x16x524288_S8x1x524288_0_0_0)
            shapeCasts_S8x1x524288_S8x524288) := by
  show StableHlo.after hostOps0 (fun b => m (c, b)) (Proc.devRef .tc main_v2) = _
  after_results
  rfl

/-- The second windowed array is the pixel indices with a unit axis inserted. -/
theorem V_v3_eq (c : Dev nD) :
    (V m c main_v3 : IVec S8x1x524288 32)
      = broadcastInDim S8x1x524288 ![0, 2] bcast_S8x524288_S8x1x524288_0_2
          (m ((c.tc : Thread nD τ).loc main_arg1) : IVec S8x524288 32) := by
  show StableHlo.after hostOps0 (fun b => m (c, b)) (Proc.devRef .tc main_v3) = _
  after_results

/-- The third windowed array is the row number 0 … 191 repeated along each row. -/
theorem V_v6_eq (c : Dev nD) :
    (V m c main_v6 : IVec S192x4096 32)
      = broadcastInDim S192x4096 ![0, 1] bcast_S192x1_S192x4096_0_1
          (broadcastInDim S192x1 ![0] bcast_S192_S192x1_0 (iotaInDim S192 32 0)) := by
  show StableHlo.after hostOps0 (fun b => m (c, b)) (Proc.devRef .tc main_v6) = _
  after_results

/-- The fourth windowed array is the row number 0 … 255 repeated along each row. -/
theorem V_v9_eq (c : Dev nD) :
    (V m c main_v9 : IVec S256x4096 32)
      = broadcastInDim S256x4096 ![0, 1] bcast_S256x1_S256x4096_0_1
          (broadcastInDim S256x1 ![0] bcast_S256_S256x1_0 (iotaInDim S256 32 0)) := by
  show StableHlo.after hostOps0 (fun b => m (c, b)) (Proc.devRef .tc main_v9) = _
  after_results

/-! ## Those terms read at an index -/

/-- Channel 0 sliced, flattened and re-broadcast reads, at (b, 0, n), the values at (b, 0, n). -/
theorem chan0_apply (x : FVec Ideal S8x16x524288 .f32) (b : Fin 8) (u : Fin 1) (n : Fin 524288) :
    broadcastInDim S8x1x524288 ![0, 2] bcast_S8x524288_S8x1x524288_0_2
        (shapeCast S8x524288 (extractStridedSlice S8x1x524288 ![0, 0, 0] x slices_S8x16x524288_S8x1x524288_0_0_0)
          shapeCasts_S8x1x524288_S8x524288) (ix3 b u n)
      = x (ix3 b (0 : Fin 16) n) := by
  refine (broadcastInDim_apply _ _ _ (ix3 b u n) (ix2 b n) fun a => ?_).trans ?_
  · match a with
    | ⟨0, _⟩ => rfl
    | ⟨1, _⟩ => rfl
  refine (shapeCast_apply _ _ (ix2 b n) (ix3 b (0 : Fin 1) n) ?_).trans ?_
  · rw [Shape.rowMajor_val_three, Shape.rowMajor_val_two]
    show (b.val * 1 + 0) * 524288 + n.val = b.val * 524288 + n.val
    omega
  refine extractStridedSlice_apply _ _ _ (ix3 b (0 : Fin 1) n) (ix3 b (0 : Fin 16) n) fun a => ?_
  match a with
  | ⟨0, _⟩ => show b.val = 0 + b.val; omega
  | ⟨1, _⟩ => show 0 = 0 + 0; rfl
  | ⟨2, _⟩ => show n.val = 0 + n.val; omega

/-- The pixel indices with a unit axis inserted read, at (b, 0, n), the pixel index at (b, n). -/
theorem pixu_apply (p : IVec S8x524288 32) (b : Fin 8) (u : Fin 1) (n : Fin 524288) :
    broadcastInDim S8x1x524288 ![0, 2] bcast_S8x524288_S8x1x524288_0_2 p (ix3 b u n) = p (ix2 b n) := by
  refine broadcastInDim_apply _ _ _ (ix3 b u n) (ix2 b n) fun a => ?_
  match a with
  | ⟨0, _⟩ => rfl
  | ⟨1, _⟩ => rfl

/-- The row number 0 … 191 repeated along each row reads the row number. -/
theorem rows192_apply (a : Fin 192) (l : Fin 4096) :
    broadcastInDim S192x4096 ![0, 1] bcast_S192x1_S192x4096_0_1
        (broadcastInDim S192x1 ![0] bcast_S192_S192x1_0 (iotaInDim S192 32 0)) (ix2 a l) = BitVec.ofNat 32 a.val := by
  refine (broadcastInDim_apply _ _ _ (ix2 a l) (ix2 a (0 : Fin 1)) fun d => ?_).trans ?_
  · match d with
    | ⟨0, _⟩ => rfl
    | ⟨1, _⟩ => rfl
  refine (broadcastInDim_apply _ _ _ (ix2 a (0 : Fin 1)) (ix1 a) fun d => ?_).trans ?_
  · match d with
    | ⟨0, _⟩ => rfl
  rfl

/-- The row number 0 … 255 repeated along each row reads the row number. -/
theorem rows256_apply (q : Fin 256) (l : Fin 4096) :
    broadcastInDim S256x4096 ![0, 1] bcast_S256x1_S256x4096_0_1
        (broadcastInDim S256x1 ![0] bcast_S256_S256x1_0 (iotaInDim S256 32 0)) (ix2 q l) = BitVec.ofNat 32 q.val := by
  refine (broadcastInDim_apply _ _ _ (ix2 q l) (ix2 q (0 : Fin 1)) fun d => ?_).trans ?_
  · match d with
    | ⟨0, _⟩ => rfl
    | ⟨1, _⟩ => rfl
  refine (broadcastInDim_apply _ _ _ (ix2 q (0 : Fin 1)) (ix1 q) fun d => ?_).trans ?_
  · match d with
    | ⟨0, _⟩ => rfl
  rfl

/-! ## The windows' block indices over the grid -/

/-- The grid has 128 points: point t is (t / 16, t % 16). -/
theorem t_lt (t : Fin cfg0.N) : t.val < 128 := lt_of_lt_of_eq t.isLt N_0

/-- Windows 0 and 1 step with both grid coordinates; windows 2 and 3 stay at block (0, 0). -/
theorem idx_facts : ∀ t : Fin cfg0.N,
    (win0_0.index t (0 : Fin 3) = t.val / 16 ∧ win0_0.index t (1 : Fin 3) = 0 ∧ win0_0.index t (2 : Fin 3) = t.val % 16)
    ∧ (win0_1.index t (0 : Fin 3) = t.val / 16 ∧ win0_1.index t (1 : Fin 3) = 0 ∧ win0_1.index t (2 : Fin 3) = t.val % 16)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-! ## Each block read at an index -/

/-- Window 0's block at point t is positions 32768·(t % 16) … of row t / 16 of channel 0 of the values. -/
theorem iblk0_apply (c : Dev nD) (t : Fin cfg0.N) (s : Fin 32768) :
    (iblk m c 0 t : Vec Ideal S1x1x32768 .f32) (ix3 (0 : Fin 1) (0 : Fin 1) s)
      = (m ((c.tc : Thread nD τ).loc main_arg0) : FVec Ideal S8x16x524288 .f32)
          (ix3 (⟨t.val / 16, by have := t_lt t; omega⟩ : Fin 8) (0 : Fin 16)
            (⟨32768 * (t.val % 16) + s.val, by have := t_lt t; have := s.isLt; omega⟩ : Fin 524288)) := by
  obtain ⟨⟨e0, e1, e2⟩, -, -, -⟩ := idx_facts t
  have ht := t_lt t
  have hs := s.isLt
  unfold iblk
  rw [View.read_apply]
  show V m c main_v2 (((cfg0.win 0).blk t).view.emb (ix3 (0 : Fin 1) (0 : Fin 1) s)) = _
  have hemb : ((cfg0.win 0).blk t).view.emb (ix3 (0 : Fin 1) (0 : Fin 1) s)
      = ix3 (⟨t.val / 16, by omega⟩ : Fin 8) (0 : Fin 1) (⟨32768 * (t.val % 16) + s.val, by omega⟩ : Fin 524288) := by
    funext a; apply Fin.ext
    match a with
    | ⟨0, _⟩ => show win0_0.index t (0 : Fin 3) * 1 + 1 * 0 = t.val / 16; omega
    | ⟨1, _⟩ => show win0_0.index t (1 : Fin 3) * 1 + 1 * 0 = 0; omega
    | ⟨2, _⟩ => show win0_0.index t (2 : Fin 3) * 32768 + 1 * s.val = 32768 * (t.val % 16) + s.val; omega
  rw [hemb]
  exact (congrFun (V_v2_eq m c) _).trans (chan0_apply _ _ _ _)

/-- Window 1's block at point t is positions 32768·(t % 16) … of row t / 16 of the pixel indices. -/
theorem iblk1_apply (c : Dev nD) (t : Fin cfg0.N) (s : Fin 32768) :
    (iblk m c 1 t : Vec Ideal S1x1x32768 .i32) (ix3 (0 : Fin 1) (0 : Fin 1) s)
      = (m ((c.tc : Thread nD τ).loc main_arg1) : IVec S8x524288 32)
          (ix2 (⟨t.val / 16, by have := t_lt t; omega⟩ : Fin 8)
            (⟨32768 * (t.val % 16) + s.val, by have := t_lt t; have := s.isLt; omega⟩ : Fin 524288)) := by
  obtain ⟨-, ⟨e0, e1, e2⟩, -, -⟩ := idx_facts t
  have ht := t_lt t
  have hs := s.isLt
  unfold iblk
  rw [View.read_apply]
  show V m c main_v3 (((cfg0.win 1).blk t).view.emb (ix3 (0 : Fin 1) (0 : Fin 1) s)) = _
  have hemb : ((cfg0.win 1).blk t).view.emb (ix3 (0 : Fin 1) (0 : Fin 1) s)
      = ix3 (⟨t.val / 16, by omega⟩ : Fin 8) (0 : Fin 1) (⟨32768 * (t.val % 16) + s.val, by omega⟩ : Fin 524288) := by
    funext a; apply Fin.ext
    match a with
    | ⟨0, _⟩ => show win0_1.index t (0 : Fin 3) * 1 + 1 * 0 = t.val / 16; omega
    | ⟨1, _⟩ => show win0_1.index t (1 : Fin 3) * 1 + 1 * 0 = 0; omega
    | ⟨2, _⟩ => show win0_1.index t (2 : Fin 3) * 32768 + 1 * s.val = 32768 * (t.val % 16) + s.val; omega
  rw [hemb]
  exact (congrFun (V_v3_eq m c) _).trans (pixu_apply _ _ _ _)

/-- Window 2's block is the whole array of row numbers 0 … 191 at every point. -/
theorem iblk2_apply (c : Dev nD) (t : Fin cfg0.N) (a : Fin 192) (l : Fin 4096) :
    (iblk m c 2 t : Vec Ideal S192x4096 .i32) (ix2 a l) = BitVec.ofNat 32 a.val := by
  obtain ⟨-, -, ⟨e0, e1⟩, -⟩ := idx_facts t
  unfold iblk
  rw [View.read_apply]
  show V m c main_v6 (((cfg0.win 2).blk t).view.emb (ix2 a l)) = _
  have hemb : ((cfg0.win 2).blk t).view.emb (ix2 a l) = ix2 a l := by
    funext d; apply Fin.ext
    match d with
    | ⟨0, _⟩ => show win0_2.index t (0 : Fin 2) * 192 + 1 * a.val = a.val; omega
    | ⟨1, _⟩ => show win0_2.index t (1 : Fin 2) * 4096 + 1 * l.val = l.val; omega
  rw [hemb]
  exact (congrFun (V_v6_eq m c) _).trans (rows192_apply _ _)

/-- Window 3's block is the whole array of row numbers 0 … 255 at every point. -/
theorem iblk3_apply (c : Dev nD) (t : Fin cfg0.N) (q : Fin 256) (l : Fin 4096) :
    (iblk m c 3 t : Vec Ideal S256x4096 .i32) (ix2 q l) = BitVec.ofNat 32 q.val := by
  obtain ⟨-, -, -, ⟨e0, e1⟩⟩ := idx_facts t
  unfold iblk
  rw [View.read_apply]
  show V m c main_v9 (((cfg0.win 3).blk t).view.emb (ix2 q l)) = _
  have hemb : ((cfg0.win 3).blk t).view.emb (ix2 q l) = ix2 q l := by
    funext d; apply Fin.ext
    match d with
    | ⟨0, _⟩ => show win0_3.index t (0 : Fin 2) * 256 + 1 * q.val = q.val; omega
    | ⟨1, _⟩ => show win0_3.index t (1 : Fin 2) * 4096 + 1 * l.val = l.val; omega
  rw [hemb]
  exact (congrFun (V_v9_eq m c) _).trans (rows256_apply _ _)

end Cert.KernelIdeal.Blocks

end
-- ==== Proof.PayIdx.lean ====
/-
  The kernel body's arithmetic, read at one index, at the ideal instance.

  The two halves of the left operand are the row-one-hot of the pixel word's high digit, weighted by the value in the
  upper half and by one in the lower; the right operand is the one-hot of its low digit; one trip adds their product
  over the 4096 samples of the trip to the accumulator; the last point divides the upper half of the accumulator
  by the lower clamped below at one.
-/
import proofs.«430517_j86431921865188_3_alg».proof.Proof.Gen.KernelIdeal
import proofs.«430517_j86431921865188_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Idealize.ShloMosaic Idealize.ShloMosaic.ValueIdx
open Cert.KernelIdeal Cert.KernelIdeal.Gen

/-- The single-precision word of zero denotes zero. -/
theorem f32_zero : Ideal.ofBits .f32 0x00000000#32 = 0 := by simp [Ideal.ofBits, Ideal.ieee]

/-- The single-precision word `0x3F800000` denotes one. -/
theorem f32_one : Ideal.ofBits .f32 0x3F800000#32 = 1 := by
  simp [Ideal.ofBits, Ideal.ieee, -EReal.coe_mul]; norm_num

/-- The half-width word of zero denotes zero. -/
theorem bf16_zero : Ideal.ofBits .bf16 0x0000#16 = 0 := by simp [Ideal.ofBits, Ideal.ieee]

/-- The bit of an equality test of a word with itself is set. -/
theorem cmpi_eq_self (x : BitVec 32) : IntOp.cmpi .eq x x = 1#1 := by simp [IntOp.cmpi]

/-- The bit of an equality test of two different words is clear. -/
theorem cmpi_eq_of_ne {x y : BitVec 32} (h : ¬x = y) : IntOp.cmpi .eq x y = 0#1 := by
  have hb : (x == y) = false := beq_eq_false_iff_ne.mpr h
  simp [IntOp.cmpi, hb]

/-- A select on the bit of an equality test is the `if` on the equality. -/
theorem select_cmpi_eq {α : Type} (x y : BitVec 32) (A B : α) :
    Scalar.select (IntOp.cmpi .eq x y) A B = if x = y then A else B := by
  by_cases h : x = y
  · subst h; rw [cmpi_eq_self, select_one, if_pos rfl]
  · rw [cmpi_eq_of_ne h, select_zero, if_neg h]

/-- The bit of an equality test, widened to a word and converted, is one where the words agree and zero elsewhere. -/
theorem sitofp_extui_cmpi_eq (x y : BitVec 32) :
    ((((IntOp.cmpi .eq x y).setWidth 32).toInt : ℝ) : EReal) = if x = y then (1 : EReal) else 0 := by
  by_cases h : x = y
  · subst h
    rw [cmpi_eq_self, if_pos rfl]
    have h1 : ((1#1 : BitVec 1).setWidth 32).toInt = 1 := by decide
    rw [h1]; norm_num
  · rw [cmpi_eq_of_ne h, if_neg h]
    have h0 : ((0#1 : BitVec 1).setWidth 32).toInt = 0 := by decide
    rw [h0]; norm_num

/-- The accumulator's reset value is zero everywhere. -/
theorem pay1_apply (r : Fin 384) (c : Fin 256) : k0_pay1 (F := Ideal) (ix2 r c) = 0 := by
  unfold k0_pay1
  rw [shapeCast_self]
  exact f32_zero

/-- A cast to the same shape changes nothing. -/
theorem pay2_eq {F : FTy → Type} [FloatOps F] (v3 : Vec F S192x4096 .i32) : k0_pay2 (F := F) v3 = v3 := by
  unfold k0_pay2
  exact shapeCast_self _ _
theorem pay3_eq {F : FTy → Type} [FloatOps F] (v5 : Vec F S256x4096 .i32) : k0_pay3 (F := F) v5 = v5 := by
  unfold k0_pay3
  exact shapeCast_self _ _
theorem pay4_eq {F : FTy → Type} [FloatOps F] (v49 : FVec F S384x256 .f32) : k0_pay4 (F := F) v49 = v49 := by
  unfold k0_pay4
  exact shapeCast_self _ _

/-- The pixel words of one trip, with the two leading unit axes reduced to one: the word at sample `l`. -/
theorem pay6_apply {F : FTy → Type} [FloatOps F] (v18 : Vec F S1x1x4096 .i32) (l : Fin 4096) :
    k0_pay6 (F := F) v18 (ix2 (0 : Fin 1) l) = v18 (ix3 (0 : Fin 1) (0 : Fin 1) l) := by
  unfold k0_pay6
  rw [shapeCast_self]
  exact shapeCast_1ab_ab_apply _ _ _ _

/-- The row mask's bit: the test of the pixel word's high digit against the row's number. -/
theorem pay7_apply {F : FTy → Type} [FloatOps F] (v4 : IVec S192x4096 32) (v18 : Vec F S1x1x4096 .i32)
    (a : Fin 192) (l : Fin 4096) :
    k0_pay7 (F := F) v4 v18 (ix2 a l)
      = IntOp.cmpi .eq (IntOp.shrsi .vector (v18 (ix3 (0 : Fin 1) (0 : Fin 1) l)) 8#32) (v4 (ix2 a l)) := by
  unfold k0_pay7
  show IntOp.cmpi .eq (broadcastTo S192x4096 (shrsi (k0_pay6 v18) (broadcast S1x4096 8#32)) broadcasts_S1x4096_S192x4096 (ix2 a l))
      (v4 (ix2 a l)) = _
  rw [broadcastTo_1b_ab_apply]
  show IntOp.cmpi .eq (IntOp.shrsi .vector (k0_pay6 v18 (ix2 (0 : Fin 1) l)) 8#32) (v4 (ix2 a l)) = _
  rw [pay6_apply]

/-- Upper half of the left operand: the value where the high digit of the pixel word meets the row's number, else zero. -/
theorem pay8_apply (v4 : IVec S192x4096 32) (v14 : Vec Ideal S1x1x4096 .f32) (v18 : Vec Ideal S1x1x4096 .i32)
    (a : Fin 192) (l : Fin 4096) :
    k0_pay8 (F := Ideal) v4 v14 v18 (ix2 a l)
      = if IntOp.shrsi .vector (v18 (ix3 (0 : Fin 1) (0 : Fin 1) l)) 8#32 = v4 (ix2 a l) then v14 (ix3 (0 : Fin 1) (0 : Fin 1) l) else 0 := by
  unfold k0_pay8
  rw [shapeCast_self, select_apply, pay7_apply, broadcastTo_1b_ab_apply, shapeCast_self, truncf_apply,
    shapeCast_1ab_ab_apply, shapeCast_self, broadcast_apply, select_cmpi_eq]
  show (if _ then _ else Ideal.ofBits .bf16 0x0000#16) = _
  rw [bf16_zero]

/-- Lower half of the left operand: one where the high digit meets the row's number, else zero. -/
theorem pay9_apply (v4 : IVec S192x4096 32) (v18 : Vec Ideal S1x1x4096 .i32) (a : Fin 192) (l : Fin 4096) :
    k0_pay9 (F := Ideal) v4 v18 (ix2 a l)
      = if IntOp.shrsi .vector (v18 (ix3 (0 : Fin 1) (0 : Fin 1) l)) 8#32 = v4 (ix2 a l) then (1 : EReal) else 0 := by
  unfold k0_pay9
  rw [shapeCast_self, truncf_apply, sitofp_apply, extui_apply, pay7_apply]
  exact sitofp_extui_cmpi_eq _ _

/-- The left operand's row is the result's row. -/
theorem lhs_axis0 (j : S384x256.Idx) (k : dot_S384x4096_S256x4096_S384x256_1_1_0_0_n_n.contr.Idx) :
    (dot_S384x4096_S256x4096_S384x256_1_1_0_0_n_n.lhsIdx j k 0).val = (j 0).val := by
  unfold DotDims.lhsIdx
  rw [dif_neg (show ¬(0 : Fin S384x4096.rank) ∈ dot_S384x4096_S256x4096_S384x256_1_1_0_0_n_n.lhsBatch by decide),
    dif_pos (show (0 : Fin S384x4096.rank) ∈ dot_S384x4096_S256x4096_S384x256_1_1_0_0_n_n.lhsNonContracting by decide)]
  rfl

/-- The left operand's column is the contraction position. -/
theorem lhs_axis1 (j : S384x256.Idx) (k : dot_S384x4096_S256x4096_S384x256_1_1_0_0_n_n.contr.Idx) :
    (dot_S384x4096_S256x4096_S384x256_1_1_0_0_n_n.lhsIdx j k 1).val = (k ⟨0, by decide⟩).val :=
  DotDims.lhsIdx_val_of_single _ (cl := (1 : Fin S384x4096.rank)) rfl j k

/-- The right operand's row is the result's column. -/
theorem rhs_axis0 (j : S384x256.Idx) (k : dot_S384x4096_S256x4096_S384x256_1_1_0_0_n_n.contr.Idx) :
    (dot_S384x4096_S256x4096_S384x256_1_1_0_0_n_n.rhsIdx j k 0).val = (j 1).val := by
  unfold DotDims.rhsIdx
  rw [dif_neg (show ¬(0 : Fin S256x4096.rank) ∈ dot_S384x4096_S256x4096_S384x256_1_1_0_0_n_n.rhsBatch by decide),
    dif_pos (show (0 : Fin S256x4096.rank) ∈ dot_S384x4096_S256x4096_S384x256_1_1_0_0_n_n.rhsNonContracting by decide)]
  rfl

/-- The right operand's column is the contraction position. -/
theorem rhs_axis1 (j : S384x256.Idx) (k : dot_S384x4096_S256x4096_S384x256_1_1_0_0_n_n.contr.Idx) :
    (dot_S384x4096_S256x4096_S384x256_1_1_0_0_n_n.rhsIdx j k 1).val = (k ⟨0, by decide⟩).val :=
  DotDims.rhsIdx_val_of_single _ (cr := (1 : Fin S256x4096.rank)) rfl j k

/-- The product into the zero accumulator, read at row `r` and column `c`: the sum over the 4096 contraction positions
of the left operand's row `r` times the right operand's row `c`. -/
theorem matmul_zero_apply (lhs : FVec Ideal S384x4096 .bf16) (rhs : FVec Ideal S256x4096 .bf16) (r : Fin 384) (c : Fin 256) :
    matmul dot_S384x4096_S256x4096_S384x256_1_1_0_0_n_n none lhs rhs (constant (F := Ideal) S384x256 .f32 0x00000000#32) (ix2 r c)
      = ∑ l : Fin 4096, lhs (ix2 r l) * rhs (ix2 c l) := by
  refine (Ideal.matmul_constant_zero_apply dot_S384x4096_S256x4096_S384x256_1_1_0_0_n_n none lhs rhs (ix2 r c)).trans ?_
  rw [← Equiv.sum_comp (contrEquiv1 dot_S384x4096_S256x4096_S384x256_1_1_0_0_n_n 4096 rfl rfl).symm]
  refine Finset.sum_congr rfl fun l _ => ?_
  have hk := contrEquiv1_symm_val dot_S384x4096_S256x4096_S384x256_1_1_0_0_n_n 4096 rfl rfl l
  congr 1
  · refine congrArg lhs (funext fun a => Fin.ext ?_)
    match a with
    | ⟨0, _⟩ => exact lhs_axis0 _ _
    | ⟨1, _⟩ => exact (lhs_axis1 _ _).trans hk
  · refine congrArg rhs (funext fun a => Fin.ext ?_)
    match a with
    | ⟨0, _⟩ => exact rhs_axis0 _ _
    | ⟨1, _⟩ => exact (rhs_axis1 _ _).trans hk

/-- One trip: the accumulator plus, over the trip's samples, the left operand times the one-hot of the low digit. -/
theorem pay10_apply (v6 : IVec S256x4096 32) (v18 : Vec Ideal S1x1x4096 .i32) (v46 : Vec Ideal S384x4096 .bf16)
    (v48 : Vec Ideal S384x256 .f32) (r : Fin 384) (c : Fin 256) :
    k0_pay10 (F := Ideal) v6 v18 v46 v48 (ix2 r c)
      = v48 (ix2 r c) + ∑ l : Fin 4096, v46 (ix2 r l)
          * (if IntOp.andi (v18 (ix3 (0 : Fin 1) (0 : Fin 1) l)) 255#32 = v6 (ix2 c l) then (1 : EReal) else 0) := by
  unfold k0_pay10
  rw [addf_apply, matmul_zero_apply]
  congr 1
  refine Finset.sum_congr rfl fun l _ => ?_
  congr 1
  rw [truncf_apply, sitofp_apply, extui_apply]
  show ((((IntOp.cmpi .eq (broadcastTo S256x4096 (andi (k0_pay6 v18) (broadcast S1x4096 255#32)) broadcasts_S1x4096_S256x4096 (ix2 c l))
      (v6 (ix2 c l))).setWidth 32).toInt : ℝ) : EReal) = _
  rw [broadcastTo_1b_ab_apply]
  show ((((IntOp.cmpi .eq (IntOp.andi (k0_pay6 v18 (ix2 (0 : Fin 1) l)) 255#32) (v6 (ix2 c l))).setWidth 32).toInt : ℝ) : EReal) = _
  rw [pay6_apply]
  exact sitofp_extui_cmpi_eq _ _

/-- The last point's quotient: the sum over the count clamped below at one. -/
theorem pay5_apply (v11 v12 : Vec Ideal S192x256 .f32) (a : Fin 192) (c : Fin 256) :
    k0_pay5 (F := Ideal) v11 v12 (ix3 (0 : Fin 1) a c) = Ideal.div (v11 (ix2 a c)) (max (v12 (ix2 a c)) 1) := by
  unfold k0_pay5
  rw [shapeCast_ab_1ab_apply, divf_apply, maximumf_apply, broadcast_apply]
  show Ideal.div _ (max _ (Ideal.ofBits .f32 0x3F800000#32)) = _
  rw [f32_one]

end Cert.KernelIdeal.PayIdx

end
-- ==== Proof.Digits.lean ====
/-
  Words and sums: the pure arithmetic behind the two one-hot masks and the blocked accumulation.

  * A 32-bit word is determined by its arithmetic shift right by 8 together with its low byte: for a row digit
    a < 192 and a column digit c < 256, the word has shift a and low byte c exactly when it is the word 256·a + c.
    This holds for every word, negative ones included: a word whose shift is a small non-negative number is itself
    non-negative.
  * Every pixel number below 49152 = 192·256 is 256·a + c for one such pair of digits.
  * A sum over 524288 = 16·8·4096 positions is the triple sum over (j, k, l) at position 32768·j + 4096·k + l.
  * The product of a one-hot value with a one-hot mask is the value under both conditions.
-/
import Mathlib.Algebra.BigOperators.Group.Finset.Defs
import Mathlib.Data.Fintype.BigOperators
import Mathlib.Data.EReal.Basic
import Idealize.ShloMosaic.PureOps.Ideal

namespace Cert.Digits

open Idealize.ShloMosaic

/-! ## Words -/

/-- The arithmetic shift right by 8 of any 32-bit word, read signed, is the floor of the word's signed value over 256. -/
theorem toInt_shrsi8 (w : BitVec 32) : (IntOp.shrsi .vector w 8#32).toInt = w.toInt / 256 := by
  have h8 : (8#32 : BitVec 32).toNat = 8 := rfl
  unfold IntOp.shrsi
  rw [if_pos (by rw [h8]; decide), BitVec.toInt_sshiftRight', h8, Int.shiftRight_eq_div_pow]
  rfl

/-- The low byte of any 32-bit word, read unsigned, is the word's unsigned value modulo 256. -/
theorem toNat_andi255 (w : BitVec 32) : (IntOp.andi w 255#32).toNat = w.toNat % 256 := by
  have h255 : (255#32 : BitVec 32).toNat = 2 ^ 8 - 1 := rfl
  unfold IntOp.andi
  rw [BitVec.toNat_and, h255, Nat.and_two_pow_sub_one_eq_mod]

/-- A small number as a 32-bit word reads back as itself, unsigned. -/
theorem toNat_ofNat_small (n : ℕ) (h : n < 2 ^ 31) : (BitVec.ofNat 32 n).toNat = n := by
  rw [BitVec.toNat_ofNat]; exact Nat.mod_eq_of_lt (by omega)

/-- A small number as a 32-bit word reads back as itself, signed. -/
theorem toInt_ofNat_small (n : ℕ) (h : n < 2 ^ 31) : (BitVec.ofNat 32 n).toInt = (n : ℤ) := by
  rw [BitVec.toInt_eq_toNat_cond, toNat_ofNat_small n h]
  split <;> omega

/-- Shift and low byte determine the word: for digits a < 192 and c < 256, a 32-bit word has arithmetic shift a and
    low byte c exactly when it is the word 256·a + c.  No range is assumed of the word: a negative word has a negative
    shift, which is no digit. -/
theorem digits_iff (w : BitVec 32) (a : Fin 192) (c : Fin 256) :
    (IntOp.shrsi .vector w 8#32 = BitVec.ofNat 32 a.val ∧ IntOp.andi w 255#32 = BitVec.ofNat 32 c.val)
      ↔ w = BitVec.ofNat 32 (256 * a.val + c.val) := by
  have ha := a.isLt
  have hc := c.isLt
  have hs := toInt_shrsi8 w
  have hn := toNat_andi255 w
  have hA := toInt_ofNat_small a.val (by omega)
  have hC := toNat_ofNat_small c.val (by omega)
  have hN := toNat_ofNat_small (256 * a.val + c.val) (by omega)
  have hwlt : w.toNat < 2 ^ 32 := w.isLt
  have hti := BitVec.toInt_eq_toNat_cond w
  constructor
  · rintro ⟨h1, h2⟩
    rw [h1, hA] at hs
    rw [h2, hC] at hn
    apply BitVec.eq_of_toNat_eq
    rw [hN]
    split at hti <;> omega
  · intro hw
    have hwn : w.toNat = 256 * a.val + c.val := by rw [hw, hN]
    refine ⟨BitVec.eq_of_toInt_eq ?_, BitVec.eq_of_toNat_eq ?_⟩
    · rw [hs, hA]
      split at hti <;> omega
    · rw [hn, hC]
      omega

/-! ## Pixel numbers -/

/-- Every pixel number below 49152 has a row digit below 192 and a column digit below 256. -/
theorem pixel_split (q : Fin 49152) : ∃ (a : Fin 192) (c : Fin 256), q.val = 256 * a.val + c.val :=
  ⟨⟨q.val / 256, by omega⟩, ⟨q.val % 256, by omega⟩, by dsimp only; omega⟩

/-- Conversely a pair of digits names a pixel number below 49152. -/
theorem pixel_lt (a : Fin 192) (c : Fin 256) : 256 * a.val + c.val < 49152 := by omega

/-- Distinct digit pairs name distinct pixel numbers. -/
theorem pixel_inj {a a' : Fin 192} {c c' : Fin 256} (h : 256 * a.val + c.val = 256 * a'.val + c'.val) :
    a = a' ∧ c = c' :=
  ⟨Fin.ext (by omega), Fin.ext (by omega)⟩

/-! ## Sums -/

/-- The positions below 524288 = 16·8·4096 are the triples (j, k, l) at position 32768·j + 4096·k + l. -/
def chunkEquiv : Fin 16 × Fin 8 × Fin 4096 ≃ Fin 524288 where
  toFun p := ⟨32768 * p.1.val + 4096 * p.2.1.val + p.2.2.val, by omega⟩
  invFun n := (⟨n.val / 32768, by omega⟩, ⟨n.val % 32768 / 4096, by omega⟩, ⟨n.val % 4096, by omega⟩)
  left_inv p := by
    obtain ⟨j, k, l⟩ := p
    refine Prod.ext (Fin.ext ?_) (Prod.ext (Fin.ext ?_) (Fin.ext ?_)) <;> dsimp only <;> omega
  right_inv n := by
    apply Fin.ext; dsimp only; omega

/-- A sum over all 524288 positions is the triple sum over blocks of 32768, sub-blocks of 4096, and offsets. -/
theorem sum_chunks {M : Type*} [AddCommMonoid M] (f : Fin 524288 → M) :
    ∑ n : Fin 524288, f n
      = ∑ j : Fin 16, ∑ k : Fin 8, ∑ l : Fin 4096, f ⟨32768 * j.val + 4096 * k.val + l.val, by omega⟩ := by
  rw [← Equiv.sum_comp chunkEquiv f, Fintype.sum_prod_type]
  refine Finset.sum_congr rfl fun j _ => ?_
  rw [Fintype.sum_prod_type]
  rfl

/-! ## One-hot products -/

/-- A value kept under one condition times a mask set under another is the value kept under both. -/
theorem onehot_mul (v : EReal) (P Q : Prop) [Decidable P] [Decidable Q] :
    (if P then v else 0) * (if Q then (1 : EReal) else 0) = if P ∧ Q then v else 0 := by
  by_cases hP : P <;> by_cases hQ : Q <;> simp [hP, hQ]

end Cert.Digits
-- ==== Proof.AccVal.lean ====
/-
  The explicit functions of the body, read at one index, at the ideal instance.

  One trip's samples are those numbered 4096 k and up; the left operand's upper rows hold the value under the row
  test and its lower rows hold one under the same test; one trip adds, to each entry of the accumulator, the sum over
  the trip's samples of the value (upper rows) or of one (lower rows) under the row test and the column test; the
  loop adds the eight trips' sums; the output is the upper half over the lower half clamped below at one.
-/
import proofs.«430517_j86431921865188_3_alg».proof.Proof.BodyRuns
import proofs.«430517_j86431921865188_3_alg».proof.Proof.PayIdx
import proofs.«430517_j86431921865188_3_alg».proof.Proof.Digits

noncomputable section

open scoped BigOperators

namespace Cert.KernelIdeal.AccVal

open Idealize.ShloMosaic Idealize.ShloMosaic.ValueIdx
open Cert.KernelIdeal Cert.KernelIdeal.Gen Cert.KernelIdeal.Body Cert.KernelIdeal.PayIdx

/-- The loop makes eight trips. -/
theorem trips_eq : k0_t1_loop.trips = 8 := by decide

/-- Sample `l` of trip `k` is sample 4096 k + l of the block. -/
def smp (k : Fin k0_t1_loop.trips) (l : Fin 4096) : Fin 32768 :=
  ⟨4096 * k.val + l.val, by have h : k.val < 8 := Nat.lt_of_lt_of_le k.isLt (Nat.le_of_eq trips_eq); omega⟩

/-- Trip `k`'s samples of a block, at sample `l`: the block at sample 4096 k + l. -/
theorem ldk_apply {e : EltTy} (x : Vec Ideal S1x1x32768 e) (k : Fin k0_t1_loop.trips) (l : Fin 4096) :
    ldk (F := Ideal) x k (ix3 (0 : Fin 1) (0 : Fin 1) l) = x (ix3 (0 : Fin 1) (0 : Fin 1) (smp k l)) := by
  show x _ = x _
  refine congrArg x (funext fun d => Fin.ext ?_)
  show k0_off1 k d + 1 * ((ix3 (0 : Fin 1) (0 : Fin 1) l) d).val = _
  rw [k0_off1_eq]
  match d with
  | ⟨0, _⟩ => rfl
  | ⟨1, _⟩ => rfl
  | ⟨2, _⟩ => show 4096 * k.val + 1 * l.val = 4096 * k.val + l.val; omega

/-- The upper store's rectangle places `(a, l)` at row `a`. -/
theorem emb_hi (a : Fin 192) (l : Fin 4096) :
    (Rect.unit (s := S384x4096) ![0, 0] S192x4096.size inb_S384x4096_S192x4096_0_0).emb (ix2 a l)
      = ix2 (⟨a.val, by omega⟩ : Fin 384) l := by
  funext d; refine Fin.ext ?_
  match d with
  | ⟨0, _⟩ => show 0 + 1 * a.val = a.val; omega
  | ⟨1, _⟩ => show 0 + 1 * l.val = l.val; omega

/-- The lower store's rectangle places `(a, l)` at row 192 + `a`. -/
theorem emb_lo (a : Fin 192) (l : Fin 4096) :
    (Rect.unit (s := S384x4096) ![192, 0] S192x4096.size inb_S384x4096_S192x4096_192_0).emb (ix2 a l)
      = ix2 (⟨192 + a.val, by omega⟩ : Fin 384) l := by
  funext d; refine Fin.ext ?_
  match d with
  | ⟨0, _⟩ => show 192 + 1 * a.val = 192 + a.val; omega
  | ⟨1, _⟩ => show 0 + 1 * l.val = l.val; omega

/-- An upper row is not under the lower store. -/
theorem not_mem_lo (a : Fin 192) (l : Fin 4096) :
    ix2 (⟨a.val, by omega⟩ : Fin 384) l
      ∉ (Rect.unit (s := S384x4096) ![192, 0] S192x4096.size inb_S384x4096_S192x4096_192_0).set := by
  rw [Rect.mem_set_unit]
  intro h
  have h0 := (h 0).1
  change 192 ≤ a.val at h0
  omega

/-- Two stores, the lower half last: an upper row reads the upper store's payload. -/
theorem canon2_hi (w9 w8 : Vec Ideal S192x4096 .bf16) (a : Fin 192) (l : Fin 4096) :
    View.canon
        [(⟨Rect.unit (s := S384x4096) ![192, 0] S192x4096.size inb_S384x4096_S192x4096_192_0, w9⟩ : View.Piece (Elt Ideal) S384x4096 .bf16),
         ⟨Rect.unit (s := S384x4096) ![0, 0] S192x4096.size inb_S384x4096_S192x4096_0_0, w8⟩]
        (ix2 (⟨a.val, by omega⟩ : Fin 384) l) = w8 (ix2 a l) := by
  have hn := View.canon_cons_of_not_mem (Val := Elt Ideal)
    (⟨Rect.unit (s := S384x4096) ![192, 0] S192x4096.size inb_S384x4096_S192x4096_192_0, w9⟩ : View.Piece (Elt Ideal) S384x4096 .bf16)
    [⟨Rect.unit (s := S384x4096) ![0, 0] S192x4096.size inb_S384x4096_S192x4096_0_0, w8⟩] (not_mem_lo a l)
  have h := View.canon_cons_emb (Val := Elt Ideal) (e := .bf16)
    (Rect.unit (s := S384x4096) ![0, 0] S192x4096.size inb_S384x4096_S192x4096_0_0) w8 [] (ix2 a l)
  exact hn.trans ((congrArg (View.canon _) (emb_hi a l).symm).trans h)

/-- Two stores, the lower half last: a lower row reads the lower store's payload. -/
theorem canon2_lo (w9 w8 : Vec Ideal S192x4096 .bf16) (a : Fin 192) (l : Fin 4096) :
    View.canon
        [(⟨Rect.unit (s := S384x4096) ![192, 0] S192x4096.size inb_S384x4096_S192x4096_192_0, w9⟩ : View.Piece (Elt Ideal) S384x4096 .bf16),
         ⟨Rect.unit (s := S384x4096) ![0, 0] S192x4096.size inb_S384x4096_S192x4096_0_0, w8⟩]
        (ix2 (⟨192 + a.val, by omega⟩ : Fin 384) l) = w9 (ix2 a l) := by
  have h := View.canon_cons_emb (Val := Elt Ideal) (e := .bf16)
    (Rect.unit (s := S384x4096) ![192, 0] S192x4096.size inb_S384x4096_S192x4096_192_0) w9
    [⟨Rect.unit (s := S384x4096) ![0, 0] S192x4096.size inb_S384x4096_S192x4096_0_0, w8⟩] (ix2 a l)
  exact (congrArg (View.canon _) (emb_lo a l).symm).trans h

/-- The left operand on an upper row: the value where the high digit of the pixel word meets the row's number, else zero. -/
theorem lhsOf_apply_hi (v3 : Vec Ideal S192x4096 .i32) (x0k : Vec Ideal S1x1x4096 .f32) (x1k : Vec Ideal S1x1x4096 .i32)
    (a : Fin 192) (l : Fin 4096) :
    lhsOf (F := Ideal) v3 x0k x1k (ix2 (⟨a.val, by omega⟩ : Fin 384) l)
      = if IntOp.shrsi .vector (x1k (ix3 (0 : Fin 1) (0 : Fin 1) l)) 8#32 = v3 (ix2 a l) then x0k (ix3 (0 : Fin 1) (0 : Fin 1) l) else 0 := by
  unfold lhsOf
  refine (canon2_hi _ _ a l).trans ?_
  rw [pay8_apply, pay2_eq]

/-- The left operand on a lower row: one where the high digit meets the row's number, else zero. -/
theorem lhsOf_apply_lo (v3 : Vec Ideal S192x4096 .i32) (x0k : Vec Ideal S1x1x4096 .f32) (x1k : Vec Ideal S1x1x4096 .i32)
    (a : Fin 192) (l : Fin 4096) :
    lhsOf (F := Ideal) v3 x0k x1k (ix2 (⟨192 + a.val, by omega⟩ : Fin 384) l)
      = if IntOp.shrsi .vector (x1k (ix3 (0 : Fin 1) (0 : Fin 1) l)) 8#32 = v3 (ix2 a l) then (1 : EReal) else 0 := by
  unfold lhsOf
  refine (canon2_lo _ _ a l).trans ?_
  rw [pay9_apply, pay2_eq]

/-- One trip on an upper row: the accumulator plus the sum, over the trip's samples, of the value under both tests. -/
theorem tripFn_apply_hi (v3 : Vec Ideal S192x4096 .i32) (v5 : Vec Ideal S256x4096 .i32) (x0 : Vec Ideal S1x1x32768 .f32)
    (x1 : Vec Ideal S1x1x32768 .i32) (k : Fin k0_t1_loop.trips) (acc : Vec Ideal S384x256 .f32) (a : Fin 192) (c : Fin 256) :
    tripFn (F := Ideal) v3 v5 x0 x1 k acc (ix2 (⟨a.val, by omega⟩ : Fin 384) c)
      = acc (ix2 (⟨a.val, by omega⟩ : Fin 384) c) + ∑ l : Fin 4096,
          (if IntOp.shrsi .vector (x1 (ix3 (0 : Fin 1) (0 : Fin 1) (smp k l))) 8#32 = v3 (ix2 a l)
              ∧ IntOp.andi (x1 (ix3 (0 : Fin 1) (0 : Fin 1) (smp k l))) 255#32 = v5 (ix2 c l)
            then x0 (ix3 (0 : Fin 1) (0 : Fin 1) (smp k l)) else 0) := by
  unfold tripFn
  rw [pay4_eq, pay10_apply, pay3_eq]
  refine congrArg (fun s => acc (ix2 (⟨a.val, by omega⟩ : Fin 384) c) + s) (Finset.sum_congr rfl fun l _ => ?_)
  rw [lhsOf_apply_hi, ldk_apply, ldk_apply]
  exact Cert.Digits.onehot_mul _ _ _

/-- One trip on a lower row: the accumulator plus the number of the trip's samples under both tests. -/
theorem tripFn_apply_lo (v3 : Vec Ideal S192x4096 .i32) (v5 : Vec Ideal S256x4096 .i32) (x0 : Vec Ideal S1x1x32768 .f32)
    (x1 : Vec Ideal S1x1x32768 .i32) (k : Fin k0_t1_loop.trips) (acc : Vec Ideal S384x256 .f32) (a : Fin 192) (c : Fin 256) :
    tripFn (F := Ideal) v3 v5 x0 x1 k acc (ix2 (⟨192 + a.val, by omega⟩ : Fin 384) c)
      = acc (ix2 (⟨192 + a.val, by omega⟩ : Fin 384) c) + ∑ l : Fin 4096,
          (if IntOp.shrsi .vector (x1 (ix3 (0 : Fin 1) (0 : Fin 1) (smp k l))) 8#32 = v3 (ix2 a l)
              ∧ IntOp.andi (x1 (ix3 (0 : Fin 1) (0 : Fin 1) (smp k l))) 255#32 = v5 (ix2 c l)
            then (1 : EReal) else 0) := by
  unfold tripFn
  rw [pay4_eq, pay10_apply, pay3_eq]
  refine congrArg (fun s => acc (ix2 (⟨192 + a.val, by omega⟩ : Fin 384) c) + s) (Finset.sum_congr rfl fun l _ => ?_)
  rw [lhsOf_apply_lo, ldk_apply]
  exact Cert.Digits.onehot_mul _ _ _

/-- If one trip adds `T k` to an entry of the accumulator, the first `n` trips add the sum of `T` over them. -/
theorem accK_fold (v3 : Vec Ideal S192x4096 .i32) (v5 : Vec Ideal S256x4096 .i32) (x0 : Vec Ideal S1x1x32768 .f32)
    (x1 : Vec Ideal S1x1x32768 .i32) (acc0 : Vec Ideal S384x256 .f32) (i : S384x256.Idx) (T : Fin k0_t1_loop.trips → EReal)
    (hT : ∀ k acc, tripFn (F := Ideal) v3 v5 x0 x1 k acc i = acc i + T k) :
    ∀ n, accK (F := Ideal) v3 v5 x0 x1 acc0 n i
      = acc0 i + ∑ k ∈ Finset.range n, (if h : k < k0_t1_loop.trips then T ⟨k, h⟩ else 0)
  | 0 => by
    show acc0 i = _
    rw [Finset.range_zero, Finset.sum_empty, add_zero]
  | n + 1 => by
    rw [Finset.sum_range_succ, ← add_assoc, ← accK_fold v3 v5 x0 x1 acc0 i T hT n]
    show (if h : n < k0_t1_loop.trips then tripFn (F := Ideal) v3 v5 x0 x1 ⟨n, h⟩ (accK v3 v5 x0 x1 acc0 n)
      else accK v3 v5 x0 x1 acc0 n) i = _
    by_cases h : n < k0_t1_loop.trips
    · rw [dif_pos h, dif_pos h, hT]
    · rw [dif_neg h, dif_neg h, add_zero]

/-- The loop on an upper row: the start plus, over the eight trips and their samples, the value under both tests. -/
theorem accLoop_apply_hi (x0 : Vec Ideal S1x1x32768 .f32) (x1 : Vec Ideal S1x1x32768 .i32) (x2 : Vec Ideal S192x4096 .i32)
    (x3 : Vec Ideal S256x4096 .i32) (acc0 : Vec Ideal S384x256 .f32) (a : Fin 192) (c : Fin 256) :
    accLoop (F := Ideal) x0 x1 x2 x3 acc0 (ix2 (⟨a.val, by omega⟩ : Fin 384) c)
      = acc0 (ix2 (⟨a.val, by omega⟩ : Fin 384) c) + ∑ k : Fin 8, ∑ l : Fin 4096,
          (if IntOp.shrsi .vector (x1 (ix3 (0 : Fin 1) (0 : Fin 1) (⟨4096 * k.val + l.val, by omega⟩ : Fin 32768))) 8#32 = x2 (ix2 a l)
              ∧ IntOp.andi (x1 (ix3 (0 : Fin 1) (0 : Fin 1) (⟨4096 * k.val + l.val, by omega⟩ : Fin 32768))) 255#32 = x3 (ix2 c l)
            then x0 (ix3 (0 : Fin 1) (0 : Fin 1) (⟨4096 * k.val + l.val, by omega⟩ : Fin 32768)) else 0) := by
  unfold accLoop
  have e : Finset.range k0_t1_loop.trips = Finset.range 8 := by rw [trips_eq]
  rw [accK_fold x2 x3 x0 x1 acc0 _ _ (fun k acc => tripFn_apply_hi x2 x3 x0 x1 k acc a c), e, Finset.sum_range]
  refine congrArg (fun s => acc0 (ix2 (⟨a.val, by omega⟩ : Fin 384) c) + s) (Finset.sum_congr rfl fun k _ => ?_)
  rw [dif_pos (show k.val < k0_t1_loop.trips by rw [trips_eq]; exact k.isLt)]
  rfl

/-- The loop on a lower row: the start plus the number of samples, over the eight trips, under both tests. -/
theorem accLoop_apply_lo (x0 : Vec Ideal S1x1x32768 .f32) (x1 : Vec Ideal S1x1x32768 .i32) (x2 : Vec Ideal S192x4096 .i32)
    (x3 : Vec Ideal S256x4096 .i32) (acc0 : Vec Ideal S384x256 .f32) (a : Fin 192) (c : Fin 256) :
    accLoop (F := Ideal) x0 x1 x2 x3 acc0 (ix2 (⟨192 + a.val, by omega⟩ : Fin 384) c)
      = acc0 (ix2 (⟨192 + a.val, by omega⟩ : Fin 384) c) + ∑ k : Fin 8, ∑ l : Fin 4096,
          (if IntOp.shrsi .vector (x1 (ix3 (0 : Fin 1) (0 : Fin 1) (⟨4096 * k.val + l.val, by omega⟩ : Fin 32768))) 8#32 = x2 (ix2 a l)
              ∧ IntOp.andi (x1 (ix3 (0 : Fin 1) (0 : Fin 1) (⟨4096 * k.val + l.val, by omega⟩ : Fin 32768))) 255#32 = x3 (ix2 c l)
            then (1 : EReal) else 0) := by
  unfold accLoop
  have e : Finset.range k0_t1_loop.trips = Finset.range 8 := by rw [trips_eq]
  rw [accK_fold x2 x3 x0 x1 acc0 _ _ (fun k acc => tripFn_apply_lo x2 x3 x0 x1 k acc a c), e, Finset.sum_range]
  refine congrArg (fun s => acc0 (ix2 (⟨192 + a.val, by omega⟩ : Fin 384) c) + s) (Finset.sum_congr rfl fun k _ => ?_)
  rw [dif_pos (show k.val < k0_t1_loop.trips by rw [trips_eq]; exact k.isLt)]
  rfl

/-- The upper load's rectangle reads row `a`. -/
theorem idx_out_hi (a : Fin 192) (c : Fin 256) :
    (Rect.unit (s := S384x256) ![0, 0] S192x256.size inb_S384x256_S192x256_0_0).idx (ix2 a c)
      = ix2 (⟨a.val, by omega⟩ : Fin 384) c := by
  funext d; refine Fin.ext ?_
  match d with
  | ⟨0, _⟩ => show 0 + 1 * a.val = a.val; omega
  | ⟨1, _⟩ => show 0 + 1 * c.val = c.val; omega

/-- The lower load's rectangle reads row 192 + `a`. -/
theorem idx_out_lo (a : Fin 192) (c : Fin 256) :
    (Rect.unit (s := S384x256) ![192, 0] S192x256.size inb_S384x256_S192x256_192_0).idx (ix2 a c)
      = ix2 (⟨192 + a.val, by omega⟩ : Fin 384) c := by
  funext d; refine Fin.ext ?_
  match d with
  | ⟨0, _⟩ => show 192 + 1 * a.val = 192 + a.val; omega
  | ⟨1, _⟩ => show 0 + 1 * c.val = c.val; omega

/-- The output block: the accumulator's upper row over its lower row clamped below at one. -/
theorem outOf_apply (acc : Vec Ideal S384x256 .f32) (a : Fin 192) (c : Fin 256) :
    outOf (F := Ideal) acc (ix3 (0 : Fin 1) a c)
      = Ideal.div (acc (ix2 (⟨a.val, by omega⟩ : Fin 384) c)) (max (acc (ix2 (⟨192 + a.val, by omega⟩ : Fin 384) c)) 1) := by
  unfold outOf
  rw [pay5_apply]
  show Ideal.div (acc ((Rect.unit (s := S384x256) ![0, 0] S192x256.size inb_S384x256_S192x256_0_0).idx (ix2 a c)))
      (max (acc ((Rect.unit (s := S384x256) ![192, 0] S192x256.size inb_S384x256_S192x256_192_0).idx (ix2 a c))) 1) = _
  rw [idx_out_hi, idx_out_lo]

end Cert.KernelIdeal.AccVal

end
-- ==== Proof.SegMean.lean ====
/-
  The segment mean, as one function of the two argument arrays.

  For a batch row `b` and a pixel `q`, `segSum` adds channel 0 of every sample of row `b` whose pixel word is `q`,
  `segCnt` counts those samples, and `pooled` is the quotient of the sum by the count clamped below at one,
  the same value in each of the sixteen output channels.  Both programs are shown to end at `pooled`.
-/
import Idealize.ShloMosaic.PureOps.Ideal
import Idealize.ShloMosaic.Lib.ValueIdx

noncomputable section

open scoped BigOperators

namespace Cert.SegMean

open Idealize.ShloMosaic Idealize.ShloMosaic.ValueIdx

/-- The values array, [8, 16, 524288]. -/
abbrev SVals : Shape := ⟨3, ![8, 16, 524288]⟩
/-- The pixel array, [8, 524288]. -/
abbrev SPix : Shape := ⟨2, ![8, 524288]⟩
/-- The result array, [8, 49152, 16]. -/
abbrev SOut : Shape := ⟨3, ![8, 49152, 16]⟩

/-- The sum of channel 0 over the samples of row `b` whose pixel word is `q`. -/
def segSum (x : SVals.Idx → EReal) (p : SPix.Idx → BitVec 32) (b : Fin 8) (q : Fin 49152) : EReal :=
  ∑ n : Fin 524288, if p (ix2 b n) = BitVec.ofNat 32 q.val then x (ix3 b (0 : Fin 16) n) else 0

/-- The number of samples of row `b` whose pixel word is `q`. -/
def segCnt (p : SPix.Idx → BitVec 32) (b : Fin 8) (q : Fin 49152) : EReal :=
  ∑ n : Fin 524288, if p (ix2 b n) = BitVec.ofNat 32 q.val then (1 : EReal) else 0

/-- The mean per row and pixel, the count clamped below at one, laid along sixteen channels. -/
def pooled (x : SVals.Idx → EReal) (p : SPix.Idx → BitVec 32) : SOut.Idx → EReal :=
  fun i => Ideal.div (segSum x p (i 0) (i 1)) (max (segCnt p (i 0) (i 1)) 1)

end Cert.SegMean

end
-- ==== Proof.KernelAcc.lean ====
/-
  The accumulator at the last point of a row is the segment sum over the segment count.

  Point 16 b + n of the grid works on samples 32768 n … 32768 n + 32767 of batch row b.  On an upper row a and
  column q one pass of the loop adds, over the point's samples, the value where the pixel word's high digit is a and
  its low digit is q; these two tests together say the pixel word is 256 a + q.  The accumulator is cleared at the
  first point of the row, so after the sixteenth it holds the sum over all 524288 samples of row b whose pixel
  word is 256 a + q: the segment sum.  The lower rows hold, in the same way, the count.  The output block is the
  quotient of the two, the count clamped below at one.
-/
import proofs.«430517_j86431921865188_3_alg».proof.Proof.BodyFrame
import proofs.«430517_j86431921865188_3_alg».proof.Proof.KernelBlocks
import proofs.«430517_j86431921865188_3_alg».proof.Proof.AccVal
import proofs.«430517_j86431921865188_3_alg».proof.Proof.PayIdx
import proofs.«430517_j86431921865188_3_alg».proof.Proof.Digits
import proofs.«430517_j86431921865188_3_alg».proof.Proof.SegMean

noncomputable section

open scoped BigOperators

namespace Cert.KernelIdeal.KVal

open Cert.KernelIdeal Cert.KernelIdeal.Gen Cert.KernelIdeal.Body
open Idealize.ShloMosaic Idealize.ShloMosaic.TcCoe Idealize.ShloMosaic.ValueIdx Idealize.SL.Sem

/-! ## A sum over the samples of a row, block by block -/

/-- The part of a sum over a row's 524288 samples that falls in block `j` of 32768. -/
def chunk (f : Fin 524288 → EReal) (j : Fin 16) : EReal :=
  ∑ k : Fin 8, ∑ l : Fin 4096, f ⟨32768 * j.val + 4096 * k.val + l.val, by omega⟩

/-- The sum over a row is the sum of its sixteen blocks' parts. -/
theorem sum_chunk (f : Fin 524288 → EReal) : ∑ n, f n = ∑ j : Fin 16, chunk f j := Cert.Digits.sum_chunks f

/-- A quantity that starts at block 0's part and gains block n + 1's part at step n + 1 is, after step 15, the whole sum. -/
theorem row_fold (f : Fin 524288 → EReal) (A : (n : ℕ) → n < 16 → EReal)
    (h0 : A 0 (by omega) = chunk f 0)
    (hs : ∀ n (hn : n + 1 < 16), A (n + 1) hn = A n (by omega) + chunk f ⟨n + 1, hn⟩) :
    A 15 (by omega) = ∑ n, f n := by
  have key : ∀ n (hn : n < 16), A n hn = ∑ j : Fin 16, if j.val ≤ n then chunk f j else 0 := by
    intro n
    induction n with
    | zero =>
      intro hn
      rw [h0]
      symm
      refine (Finset.sum_eq_single (0 : Fin 16) ?_ ?_).trans ?_
      · intro j _ hj
        have : ¬j.val ≤ 0 := fun h => hj (Fin.ext (by simpa using h))
        rw [if_neg this]
      · intro h; exact absurd (Finset.mem_univ _) h
      · rw [if_pos (by simp)]
    | succ n ih =>
      intro hn
      rw [hs n hn, ih (by omega)]
      have e : ∀ j : Fin 16, (if j.val ≤ n + 1 then chunk f j else 0)
          = (if j.val ≤ n then chunk f j else 0) + (if j = ⟨n + 1, hn⟩ then chunk f j else 0) := by
        intro j
        by_cases h1 : j.val ≤ n
        · have h2 : j ≠ ⟨n + 1, hn⟩ := fun h => by rw [h] at h1; simp at h1
          rw [if_pos h1, if_pos (by omega), if_neg h2, add_zero]
        · by_cases h2 : j = ⟨n + 1, hn⟩
          · subst h2
            rw [if_pos (le_refl _), if_neg h1, if_pos rfl, zero_add]
          · have h3 : ¬j.val ≤ n + 1 := fun h => h2 (Fin.ext (by simp; omega))
            rw [if_neg h3, if_neg h1, if_neg h2, add_zero]
      simp only [e]
      rw [Finset.sum_add_distrib, Finset.sum_ite_eq' Finset.univ (⟨n + 1, hn⟩ : Fin 16) (chunk f), if_pos (Finset.mem_univ _)]
  rw [key 15 (by omega), sum_chunk]
  refine Finset.sum_congr rfl fun j _ => ?_
  rw [if_pos (by omega)]

/-! ## The arrays, the points of a row, and the blocks at a point -/

variable (m : (ℓ : Loc nD τ sig) → Buf (Elt Ideal) ℓ)

/-- The values array on core `c`. -/
abbrev valsOf (c : Dev nD) : FVec Ideal S8x16x524288 .f32 := m ((c.tc : Thread nD τ).loc main_arg0)
/-- The pixel array on core `c`. -/
abbrev pixOf (c : Dev nD) : IVec S8x524288 32 := m ((c.tc : Thread nD τ).loc main_arg1)

/-- Point `n` of row `b` is a grid point. -/
theorem row_lt (b : Fin 8) (n : ℕ) (hn : n < 16) : 16 * b.val + n < cfg0.N := by
  have hb := b.isLt
  exact lt_of_lt_of_eq (by omega : 16 * b.val + n < 128) N_0.symm

/-- Point `n` of row `b`. -/
def pt (b : Fin 8) (n : ℕ) (hn : n < 16) : Fin cfg0.N := ⟨16 * b.val + n, row_lt b n hn⟩

/-- The four input blocks at a point, at their literal types. -/
abbrev blk0 (c : Dev nD) (t : Fin cfg0.N) : Vec Ideal S1x1x32768 .f32 := iblk m c 0 t
abbrev blk1 (c : Dev nD) (t : Fin cfg0.N) : Vec Ideal S1x1x32768 .i32 := iblk m c 1 t
abbrev blk2 (c : Dev nD) (t : Fin cfg0.N) : Vec Ideal S192x4096 .i32 := iblk m c 2 t
abbrev blk3 (c : Dev nD) (t : Fin cfg0.N) : Vec Ideal S256x4096 .i32 := iblk m c 3 t

/-- The accumulator after point `n` of row `b`. -/
def accRow (c : Dev nD) (b : Fin 8) (n : ℕ) (hn : n < 16) : Vec Ideal S384x256 .f32 :=
  accAt (F := Ideal) m c (16 * b.val + n) (row_lt b n hn)

theorem accAt_congr (c : Dev nD) {n n' : ℕ} (h : n = n') (hn : n < cfg0.N) (hn' : n' < cfg0.N) :
    accAt (F := Ideal) m c n hn = accAt (F := Ideal) m c n' hn' := by
  subst h; rfl

/-- At the first point of a row the loop starts from zero. -/
theorem accRow_zero (c : Dev nD) (b : Fin 8) :
    accRow m c b 0 (by omega)
      = accLoop (F := Ideal) (blk0 m c (pt b 0 (by omega))) (blk1 m c (pt b 0 (by omega))) (blk2 m c (pt b 0 (by omega)))
          (blk3 m c (pt b 0 (by omega))) (k0_pay1 (F := Ideal)) :=
  accAt_first (F := Ideal) m c (pt b 0 (by omega)) (by show (16 * b.val + 0) % 16 = 0; omega)

/-- At a later point of the row it starts from what the point before left. -/
theorem accRow_succ (c : Dev nD) (b : Fin 8) (n : ℕ) (hn : n + 1 < 16) :
    accRow m c b (n + 1) hn
      = accLoop (F := Ideal) (blk0 m c (pt b (n + 1) hn)) (blk1 m c (pt b (n + 1) hn)) (blk2 m c (pt b (n + 1) hn))
          (blk3 m c (pt b (n + 1) hn)) (accRow m c b n (by omega)) :=
  (accAt_next (F := Ideal) m c (pt b (n + 1) hn) (by show ¬(16 * b.val + (n + 1)) % 16 = 0; omega)).trans
    (congrArg (accLoop (F := Ideal) _ _ _ _)
      (accAt_congr m c (by show 16 * b.val + (n + 1) - 1 = 16 * b.val + n; omega) _ _))

/-! ## One point's contribution -/

/-- The value of sample `n` of row `b` where its pixel word is 256 a + q, else zero. -/
def hitVal (c : Dev nD) (b : Fin 8) (a : Fin 192) (q : Fin 256) (n : Fin 524288) : EReal :=
  if pixOf m c (ix2 b n) = BitVec.ofNat 32 (256 * a.val + q.val) then valsOf m c (ix3 b (0 : Fin 16) n) else 0

/-- One where the pixel word of sample `n` of row `b` is 256 a + q, else zero. -/
def hitOne (c : Dev nD) (b : Fin 8) (a : Fin 192) (q : Fin 256) (n : Fin 524288) : EReal :=
  if pixOf m c (ix2 b n) = BitVec.ofNat 32 (256 * a.val + q.val) then (1 : EReal) else 0

/-- The point's blocks read at sample 4096 k + l: the arrays of row `b` at sample 32768 n + 4096 k + l. -/
theorem blk0_at (c : Dev nD) (b : Fin 8) (n : ℕ) (hn : n < 16) (k : Fin 8) (l : Fin 4096)
    (h1 : 4096 * k.val + l.val < 32768) (h2 : 32768 * n + 4096 * k.val + l.val < 524288) :
    blk0 m c (pt b n hn) (ix3 (0 : Fin 1) (0 : Fin 1) (⟨4096 * k.val + l.val, h1⟩ : Fin 32768))
      = valsOf m c (ix3 b (0 : Fin 16) (⟨32768 * n + 4096 * k.val + l.val, h2⟩ : Fin 524288)) := by
  have hb := b.isLt
  refine (Blocks.iblk0_apply m c (pt b n hn) ⟨4096 * k.val + l.val, h1⟩).trans ?_
  have e1 : (⟨(pt b n hn).val / 16, by have := Blocks.t_lt (pt b n hn); omega⟩ : Fin 8) = b :=
    Fin.ext (by show (16 * b.val + n) / 16 = b.val; omega)
  have e2 : (⟨32768 * ((pt b n hn).val % 16) + (⟨4096 * k.val + l.val, h1⟩ : Fin 32768).val,
      by have := Blocks.t_lt (pt b n hn); omega⟩ : Fin 524288) = ⟨32768 * n + 4096 * k.val + l.val, h2⟩ :=
    Fin.ext (by show 32768 * ((16 * b.val + n) % 16) + (4096 * k.val + l.val) = 32768 * n + 4096 * k.val + l.val; omega)
  rw [e1, e2]

theorem blk1_at (c : Dev nD) (b : Fin 8) (n : ℕ) (hn : n < 16) (k : Fin 8) (l : Fin 4096)
    (h1 : 4096 * k.val + l.val < 32768) (h2 : 32768 * n + 4096 * k.val + l.val < 524288) :
    blk1 m c (pt b n hn) (ix3 (0 : Fin 1) (0 : Fin 1) (⟨4096 * k.val + l.val, h1⟩ : Fin 32768))
      = pixOf m c (ix2 b (⟨32768 * n + 4096 * k.val + l.val, h2⟩ : Fin 524288)) := by
  have hb := b.isLt
  refine (Blocks.iblk1_apply m c (pt b n hn) ⟨4096 * k.val + l.val, h1⟩).trans ?_
  have e1 : (⟨(pt b n hn).val / 16, by have := Blocks.t_lt (pt b n hn); omega⟩ : Fin 8) = b :=
    Fin.ext (by show (16 * b.val + n) / 16 = b.val; omega)
  have e2 : (⟨32768 * ((pt b n hn).val % 16) + (⟨4096 * k.val + l.val, h1⟩ : Fin 32768).val,
      by have := Blocks.t_lt (pt b n hn); omega⟩ : Fin 524288) = ⟨32768 * n + 4096 * k.val + l.val, h2⟩ :=
    Fin.ext (by show 32768 * ((16 * b.val + n) % 16) + (4096 * k.val + l.val) = 32768 * n + 4096 * k.val + l.val; omega)
  rw [e1, e2]

/-- On an upper row one pass of the loop adds the point's part of the segment sum. -/
theorem step_hi (c : Dev nD) (b : Fin 8) (n : ℕ) (hn : n < 16) (a : Fin 192) (q : Fin 256) (acc0 : Vec Ideal S384x256 .f32) :
    accLoop (F := Ideal) (blk0 m c (pt b n hn)) (blk1 m c (pt b n hn)) (blk2 m c (pt b n hn)) (blk3 m c (pt b n hn)) acc0
        (ix2 (⟨a.val, by omega⟩ : Fin 384) q)
      = acc0 (ix2 (⟨a.val, by omega⟩ : Fin 384) q) + chunk (hitVal m c b a q) ⟨n, hn⟩ := by
  refine (AccVal.accLoop_apply_hi (blk0 m c (pt b n hn)) (blk1 m c (pt b n hn)) (blk2 m c (pt b n hn)) (blk3 m c (pt b n hn)) acc0 a q).trans ?_
  refine congrArg (fun s => acc0 (ix2 (⟨a.val, by omega⟩ : Fin 384) q) + s) ?_
  unfold chunk
  refine Finset.sum_congr rfl fun k _ => Finset.sum_congr rfl fun l _ => ?_
  rw [blk0_at m c b n hn k l (by omega) (by omega), blk1_at m c b n hn k l (by omega) (by omega),
    show blk2 m c (pt b n hn) (ix2 a l) = BitVec.ofNat 32 a.val from Blocks.iblk2_apply m c (pt b n hn) a l,
    show blk3 m c (pt b n hn) (ix2 q l) = BitVec.ofNat 32 q.val from Blocks.iblk3_apply m c (pt b n hn) q l]
  exact if_congr (Cert.Digits.digits_iff _ a q) rfl rfl

/-- On a lower row one pass of the loop adds the point's part of the segment count. -/
theorem step_lo (c : Dev nD) (b : Fin 8) (n : ℕ) (hn : n < 16) (a : Fin 192) (q : Fin 256) (acc0 : Vec Ideal S384x256 .f32) :
    accLoop (F := Ideal) (blk0 m c (pt b n hn)) (blk1 m c (pt b n hn)) (blk2 m c (pt b n hn)) (blk3 m c (pt b n hn)) acc0
        (ix2 (⟨192 + a.val, by omega⟩ : Fin 384) q)
      = acc0 (ix2 (⟨192 + a.val, by omega⟩ : Fin 384) q) + chunk (hitOne m c b a q) ⟨n, hn⟩ := by
  refine (AccVal.accLoop_apply_lo (blk0 m c (pt b n hn)) (blk1 m c (pt b n hn)) (blk2 m c (pt b n hn)) (blk3 m c (pt b n hn)) acc0 a q).trans ?_
  refine congrArg (fun s => acc0 (ix2 (⟨192 + a.val, by omega⟩ : Fin 384) q) + s) ?_
  unfold chunk
  refine Finset.sum_congr rfl fun k _ => Finset.sum_congr rfl fun l _ => ?_
  rw [blk1_at m c b n hn k l (by omega) (by omega),
    show blk2 m c (pt b n hn) (ix2 a l) = BitVec.ofNat 32 a.val from Blocks.iblk2_apply m c (pt b n hn) a l,
    show blk3 m c (pt b n hn) (ix2 q l) = BitVec.ofNat 32 q.val from Blocks.iblk3_apply m c (pt b n hn) q l]
  exact if_congr (Cert.Digits.digits_iff _ a q) rfl rfl

/-! ## The last point of a row -/

/-- THE UPPER ROWS: after the last point of row `b`, row `a` and column `q` of the accumulator hold the segment sum of
    pixel 256 a + q. -/
theorem accAt_row_hi (c : Dev nD) (b : Fin 8) (a : Fin 192) (q : Fin 256) :
    accAt (F := Ideal) m c (16 * b.val + 15) (row_lt b 15 (by omega)) (ix2 (⟨a.val, by omega⟩ : Fin 384) q)
      = Cert.SegMean.segSum (m ((c.tc : Thread nD τ).loc main_arg0)) (m ((c.tc : Thread nD τ).loc main_arg1)) b
          ⟨256 * a.val + q.val, Cert.Digits.pixel_lt a q⟩ := by
  refine (row_fold (hitVal m c b a q) (fun n hn => accRow m c b n hn (ix2 (⟨a.val, by omega⟩ : Fin 384) q)) ?_ ?_).trans rfl
  · show accRow m c b 0 _ _ = _
    rw [accRow_zero m c b, step_hi m c b 0 (by omega) a q, PayIdx.pay1_apply, zero_add]
    rfl
  · intro n hn
    show accRow m c b (n + 1) hn _ = accRow m c b n _ _ + _
    rw [accRow_succ m c b n hn, step_hi m c b (n + 1) hn a q]

/-- THE LOWER ROWS: row 192 + `a` and column `q` hold the segment count of pixel 256 a + q. -/
theorem accAt_row_lo (c : Dev nD) (b : Fin 8) (a : Fin 192) (q : Fin 256) :
    accAt (F := Ideal) m c (16 * b.val + 15) (row_lt b 15 (by omega)) (ix2 (⟨192 + a.val, by omega⟩ : Fin 384) q)
      = Cert.SegMean.segCnt (m ((c.tc : Thread nD τ).loc main_arg1)) b ⟨256 * a.val + q.val, Cert.Digits.pixel_lt a q⟩ := by
  refine (row_fold (hitOne m c b a q) (fun n hn => accRow m c b n hn (ix2 (⟨192 + a.val, by omega⟩ : Fin 384) q)) ?_ ?_).trans rfl
  · show accRow m c b 0 _ _ = _
    rw [accRow_zero m c b, step_lo m c b 0 (by omega) a q, PayIdx.pay1_apply, zero_add]
    rfl
  · intro n hn
    show accRow m c b (n + 1) hn _ = accRow m c b n _ _ + _
    rw [accRow_succ m c b n hn, step_lo m c b (n + 1) hn a q]

/-- THE OUTPUT BLOCK of row `b`: at row `a` and column `q` the segment sum over the segment count clamped below at one. -/
theorem out_row (c : Dev nD) (b : Fin 8) (a : Fin 192) (q : Fin 256) :
    outOf (F := Ideal) (accAt (F := Ideal) m c (16 * b.val + 15) (row_lt b 15 (by omega))) (ix3 (0 : Fin 1) a q)
      = Ideal.div
          (Cert.SegMean.segSum (m ((c.tc : Thread nD τ).loc main_arg0)) (m ((c.tc : Thread nD τ).loc main_arg1)) b
            ⟨256 * a.val + q.val, Cert.Digits.pixel_lt a q⟩)
          (max (Cert.SegMean.segCnt (m ((c.tc : Thread nD τ).loc main_arg1)) b ⟨256 * a.val + q.val, Cert.Digits.pixel_lt a q⟩) 1) := by
  rw [AccVal.outOf_apply, accAt_row_hi m c b a q, accAt_row_lo m c b a q]

end Cert.KernelIdeal.KVal

end
-- ==== Proof.KernelTail.lean ====
/-
  The three host operations after the kernel's region, read at one index.

  The region's output, an array of 8 batches of 192 rows of 256 columns, is flattened to 8 rows of 49152 (row a and
  column c of a batch go to position 256 a + c), given a trailing unit axis, and copied along 16 channels.  Read at
  batch b, position p and any channel, the result is the output at batch b, row p / 256, column p % 256.
-/
import proofs.«430517_j86431921865188_3_alg».proof.Proof.Gen.KernelIdeal
import Idealize.ShloMosaic.Lib.ValueIdx
import Idealize.ShloMosaic.Lib.ValueLayout
import Idealize.ShloMosaic.Lib.Pipeline.Value

noncomputable section

namespace Cert.KernelIdeal.KVal

open Idealize.ShloMosaic Idealize.ShloMosaic.ValueIdx
open Cert.KernelIdeal Cert.KernelIdeal.Gen

/-- The flattening: position p of batch b is row p / 256 and column p % 256 of that batch. -/
theorem flat_apply (X : FVec Ideal S8x192x256 .f32) (b : Fin 8) (p : Fin 49152) :
    shapeCast S8x49152 X shapeCasts_S8x192x256_S8x49152 (ix2 b p)
      = X (ix3 b (⟨p.val / 256, by omega⟩ : Fin 192) (⟨p.val % 256, Nat.mod_lt _ (by norm_num)⟩ : Fin 256)) :=
  shapeCast_apply X shapeCasts_S8x192x256_S8x49152 _ _ (by
    rw [Shape.rowMajor_val_three, Shape.rowMajor_val_two]
    show (b.val * 192 + p.val / 256) * 256 + p.val % 256 = b.val * 49152 + p.val
    omega)

/-- The trailing unit axis: position (b, p, 0) reads position (b, p). -/
theorem unit_apply (Y : FVec Ideal S8x49152 .f32) (b : Fin 8) (p : Fin 49152) (u : Fin 1) :
    broadcastInDim S8x49152x1 ![0, 1] bcast_S8x49152_S8x49152x1_0_1 Y (ix3 b p u) = Y (ix2 b p) :=
  broadcastInDim_apply _ bcast_S8x49152_S8x49152x1_0_1 Y (ix3 b p u) (ix2 b p) (fun a => by
    match a with
    | ⟨0, _⟩ => rfl
    | ⟨1, _⟩ => rfl)

/-- The copy along the channels: position (b, p, ch) reads position (b, p, 0). -/
theorem chan_apply (Z : FVec Ideal S8x49152x1 .f32) (b : Fin 8) (p : Fin 49152) (ch : Fin 16) :
    broadcastInDim S8x49152x16 ![0, 1, 2] bcast_S8x49152x1_S8x49152x16_0_1_2 Z (ix3 b p ch) = Z (ix3 b p (0 : Fin 1)) :=
  broadcastInDim_apply _ bcast_S8x49152x1_S8x49152x16_0_1_2 Z (ix3 b p ch) (ix3 b p (0 : Fin 1)) (fun a => by
    match a with
    | ⟨0, _⟩ => rfl
    | ⟨1, _⟩ => rfl
    | ⟨2, _⟩ => rfl)

/-- The three operations together, read at batch b, position p and channel ch. -/
theorem tail_apply (X : FVec Ideal S8x192x256 .f32) (b : Fin 8) (p : Fin 49152) (ch : Fin 16) :
    (broadcastInDim S8x49152x16 ![0, 1, 2] bcast_S8x49152x1_S8x49152x16_0_1_2
      (broadcastInDim S8x49152x1 ![0, 1] bcast_S8x49152_S8x49152x1_0_1
        (shapeCast S8x49152 X shapeCasts_S8x192x256_S8x49152) : FVec Ideal S8x49152x1 .f32) : FVec Ideal S8x49152x16 .f32) (ix3 b p ch)
      = X (ix3 b (⟨p.val / 256, by omega⟩ : Fin 192) (⟨p.val % 256, Nat.mod_lt _ (by norm_num)⟩ : Fin 256)) := by
  rw [chan_apply, unit_apply, flat_apply]

end Cert.KernelIdeal.KVal

end
-- ==== Proof.KernelFinal.lean ====
/-
  From the frame run to the result array.

  The output window is written back only at the last point of each row, 16 b + 15, and what it writes there is
  block b of the array whose entry (b, a, q) is the segment sum of pixel 256 a + q of row b over its segment count
  clamped below at one.  These eight blocks tile the output array, so it ends holding exactly that function.
  The lines after the region flatten (a, q) to the pixel 256 a + q and repeat the value along sixteen channels:
  the result is the segment mean.
-/
import proofs.«430517_j86431921865188_3_alg».proof.Proof.KernelAcc
import Idealize.ShloMosaic.Lib.Pipeline.Value
import proofs.«430517_j86431921865188_3_alg».proof.Proof.KernelTail
import Idealize.ShloMosaic.Lib.Tactic

noncomputable section

open scoped BigOperators

namespace Cert.KernelIdeal.KVal

open Cert.KernelIdeal Cert.KernelIdeal.Gen Cert.KernelIdeal.Body
open Idealize.ShloMosaic Idealize.ShloMosaic.TcCoe Idealize.ShloMosaic.ValueIdx Idealize.SL.Sem
open Idealize.ShloMosaic.Tactic
open Idealize.ShloMosaic.Pipeline (Dat)

variable (m : (ℓ : Loc nD τ sig) → Buf (Elt Ideal) ℓ) (ρ : Dev nD → PrngReg)

/-! ## The output array as one function of the arguments -/

/-- The segment mean of pixel 256 a + q of row b. -/
def meanAt (c : Dev nD) (b : Fin 8) (a : Fin 192) (q : Fin 256) : EReal :=
  Ideal.div
    (Cert.SegMean.segSum (m ((c.tc : Thread nD τ).loc main_arg0)) (m ((c.tc : Thread nD τ).loc main_arg1)) b
      ⟨256 * a.val + q.val, Cert.Digits.pixel_lt a q⟩)
    (max (Cert.SegMean.segCnt (m ((c.tc : Thread nD τ).loc main_arg1)) b ⟨256 * a.val + q.val, Cert.Digits.pixel_lt a q⟩) 1)

/-- What the output array [8, 192, 256] ends holding. -/
def G10 (c : Dev nD) : S8x192x256.Idx → EReal := fun j => meanAt m c (j 0) (j 1) (j 2)

theorem G10_apply (c : Dev nD) (b : Fin 8) (a : Fin 192) (q : Fin 256) : G10 m c (ix3 b a q) = meanAt m c b a q := rfl

/-- The accumulator at equal positions. -/
theorem accAt_of_eq (c : Dev nD) {n n' : ℕ} (h : n = n') (hn : n < cfg0.N) (hn' : n' < cfg0.N) :
    accAt (F := Ideal) m c n hn = accAt (F := Ideal) m c n' hn' := by
  subst h; rfl

/-- A grid point is below 128. -/
theorem t_lt128 (t : Fin cfg0.N) : t.val < 128 := lt_of_lt_of_eq t.isLt N_0

/-- The output window's block index at point t: row t / 16, and the whole of the other two axes. -/
theorem idx4 : ∀ t : Fin cfg0.N, win0_4.index t (0 : Fin 3) = t.val / 16 ∧ win0_4.index t (1 : Fin 3) = 0
    ∧ win0_4.index t (2 : Fin 3) = 0 :=
  (by decide +kernel : ∀ t : Fin grid0.N, win0_4.index t (0 : Fin 3) = t.val / 16 ∧ win0_4.index t (1 : Fin 3) = 0
    ∧ win0_4.index t (2 : Fin 3) = 0)

/-- Entry (0, a, q) of point t's output block is entry (t / 16, a, q) of the array. -/
theorem emb4 (t : Fin cfg0.N) (a : Fin 192) (q : Fin 256) :
    ((cfg0.win 4).blk t).view.emb (ix3 (0 : Fin 1) a q)
      = ix3 (⟨t.val / 16, by have := t_lt128 t; omega⟩ : Fin 8) a q := by
  obtain ⟨e0, e1, e2⟩ := idx4 t
  funext d; apply Fin.ext
  match d with
  | ⟨0, _⟩ => show win0_4.index t (0 : Fin 3) * 1 + 1 * 0 = t.val / 16; omega
  | ⟨1, _⟩ => show win0_4.index t (1 : Fin 3) * 192 + 1 * a.val = a.val; omega
  | ⟨2, _⟩ => show win0_4.index t (2 : Fin 3) * 256 + 1 * q.val = q.val; omega

/-- Reading point t's block of any array at entry (0, a, q) reads the array at (t / 16, a, q). -/
theorem read_blk4 (G : S8x192x256.Idx → EReal) (t : Fin cfg0.N) (a : Fin 192) (q : Fin 256) :
    ((cfg0.win 4).blk t).view.read (Elt Ideal) G (ix3 (0 : Fin 1) a q)
      = G (ix3 (⟨t.val / 16, by have := t_lt128 t; omega⟩ : Fin 8) a q) := by
  show G (((cfg0.win 4).blk t).view.emb (ix3 (0 : Fin 1) a q)) = _
  rw [emb4 t a q]

/-- The output window is not cut: what is written back is the whole block. -/
theorem cut4 (X : Vec Ideal S1x192x256 .f32) (t : Fin cfg0.N) (j : S1x192x256.Idx) :
    (cfg0.win 4).cut (grid0.coords t) X j = X j := rfl

/-- WHAT A ROW'S LAST POINT WRITES BACK is its block of `G10`. -/
theorem flushed4_eq (c : Dev nD) (t : Fin cfg0.N) (ht : t.val % 16 = 15) :
    (dats m 0 c).flushed 4 t = ((cfg0.win 4).blk t).view.read (Elt Ideal) (G10 m c) := by
  show (cfg0.win 4).cut (grid0.coords t) ((dats m 0 c).after 4 t) = _
  rw [after0_4]
  refine funext fun (j : S1x192x256.Idx) => ?_
  obtain ⟨u, a, q, rfl⟩ : ∃ (u : Fin 1) (a : Fin 192) (q : Fin 256), j = ix3 u a q := ⟨j 0, j 1, j 2, eq_ix3 j⟩
  obtain rfl : u = 0 := Subsingleton.elim _ _
  refine (cut4 _ t _).trans ?_
  refine Eq.trans ?_ (read_blk4 (G10 m c) t a q).symm
  have h128 := t_lt128 t
  rw [G10_apply,
    accAt_of_eq m c (show t.val = 16 * (⟨t.val / 16, by omega⟩ : Fin 8).val + 15 by show t.val = 16 * (t.val / 16) + 15; omega)
      t.isLt (row_lt _ 15 (by omega))]
  exact out_row m c ⟨t.val / 16, by omega⟩ a q

/-- An index of the array is in point t's block iff each coordinate is in the block's range on its axis. -/
theorem mem_blk4 (t : Fin cfg0.N) (i : S8x192x256.Idx) :
    i ∈ ((cfg0.win 4).blk t).view.set ↔ ∀ a : Fin 3, win0_4.index t a * S1x192x256.size a ≤ (i a).val
      ∧ (i a).val < win0_4.index t a * S1x192x256.size a + S1x192x256.size a := by
  show i ∈ ((View.whole main_v10).slice (win0_4.rect t)).set ↔ _
  rw [View.set_slice_whole, Rect.mem_set_unit]
  exact Iff.rfl

/-- Every entry of the output array is in the block the last point of its row writes back. -/
theorem cover4 (i : S8x192x256.Idx) :
    ∃ t : Fin cfg0.N, (cfg0.win 4).flush t = true ∧ i ∈ ((cfg0.win 4).blk t).view.set := by
  have h0 : (i 0).val < 8 := (i 0).isLt
  have h1 : (i 1).val < 192 := (i 1).isLt
  have h2 : (i 2).val < 256 := (i 2).isLt
  have hlt : 16 * (i 0).val + 15 < cfg0.N := lt_of_lt_of_eq (by omega : 16 * (i 0).val + 15 < 128) N_0.symm
  refine ⟨⟨16 * (i 0).val + 15, hlt⟩, (flush0_4 _).mpr (by show (16 * (i 0).val + 15) % 16 = 15; omega), ?_⟩
  rw [mem_blk4]
  obtain ⟨e0, e1, e2⟩ := idx4 ⟨16 * (i 0).val + 15, hlt⟩
  have e0' : win0_4.index ⟨16 * (i 0).val + 15, hlt⟩ (0 : Fin 3) = (i 0).val := by
    rw [e0]; show (16 * (i 0).val + 15) / 16 = (i 0).val; omega
  intro a
  match a with
  | ⟨0, _⟩ =>
    show win0_4.index ⟨16 * (i 0).val + 15, hlt⟩ (0 : Fin 3) * 1 ≤ (i 0).val
      ∧ (i 0).val < win0_4.index ⟨16 * (i 0).val + 15, hlt⟩ (0 : Fin 3) * 1 + 1
    omega
  | ⟨1, _⟩ =>
    show win0_4.index ⟨16 * (i 0).val + 15, hlt⟩ (1 : Fin 3) * 192 ≤ (i 1).val
      ∧ (i 1).val < win0_4.index ⟨16 * (i 0).val + 15, hlt⟩ (1 : Fin 3) * 192 + 192
    omega
  | ⟨2, _⟩ =>
    show win0_4.index ⟨16 * (i 0).val + 15, hlt⟩ (2 : Fin 3) * 256 ≤ (i 2).val
      ∧ (i 2).val < win0_4.index ⟨16 * (i 0).val + 15, hlt⟩ (2 : Fin 3) * 256 + 256
    omega

/-- THE OUTPUT ARRAY after the run. -/
theorem final4 (c : Dev nD) : (dats m 0 c).arrAt 4 cfg0.N = G10 m c :=
  (dats m 0 c).arrAt_eq_of_cover 4 (G10 m c) (fun t ht => flushed4_eq m c t ((flush0_4 t).mp ht)) cover4

/-! ## The lines after the region -/

/-- The result array is the three lines after the region applied to the output array. -/
theorem v13_eq (c : Dev nD) :
    Pipeline.afterTail₀ cfgs (dats m) 0 (V0 m) [hostOps1] c main_v13
      = (broadcastInDim S8x49152x16 ![0, 1, 2] bcast_S8x49152x1_S8x49152x16_0_1_2
          (broadcastInDim S8x49152x1 ![0, 1] bcast_S8x49152_S8x49152x1_0_1
            (shapeCast S8x49152 (G10 m c) shapeCasts_S8x192x256_S8x49152) : FVec Ideal S8x49152x1 .f32) : FVec Ideal S8x49152x16 .f32) := by
  unfold Pipeline.afterTail₀
  show StableHlo.after (hostOps1 (F := Ideal)) _ (Proc.devRef .tc main_v13) = _
  after_results
  have e : Pipeline.withArrays (cfgs 0).spec c (V0 m c) (fun w => (dats m 0 c).arrAt w (cfgs 0).N) (Proc.devRef .tc main_v10)
      = G10 m c := (Pipeline.withArrays_arr spec0 launch0.win.arr_inj c _ _ 4).trans (final4 m c)
  rw [e]
  generalize G10 m c = G
  rfl

/-- Read at an index: the segment mean. -/
theorem v13_pooled (c : Dev nD) :
    Pipeline.afterTail₀ cfgs (dats m) 0 (V0 m) [hostOps1] c main_v13
      = Cert.SegMean.pooled (m ((c.tc : Thread nD τ).loc main_arg0)) (m ((c.tc : Thread nD τ).loc main_arg1)) := by
  rw [v13_eq m c]
  refine funext fun (i : S8x49152x16.Idx) => ?_
  obtain ⟨b, p, ch, rfl⟩ : ∃ (b : Fin 8) (p : Fin 49152) (ch : Fin 16), i = ix3 b p ch := ⟨i 0, i 1, i 2, eq_ix3 i⟩
  refine (tail_apply (G10 m c) b p ch).trans ?_
  rw [G10_apply]
  have hp : ∀ h, (⟨256 * (p.val / 256) + p.val % 256, h⟩ : Fin 49152) = p := fun h => Fin.ext (by show 256 * (p.val / 256) + p.val % 256 = p.val; omega)
  unfold meanAt Cert.SegMean.pooled
  show Ideal.div (Cert.SegMean.segSum _ _ b ⟨256 * (p.val / 256) + p.val % 256, _⟩)
      (max (Cert.SegMean.segCnt _ b ⟨256 * (p.val / 256) + p.val % 256, _⟩) 1)
    = Ideal.div (Cert.SegMean.segSum _ _ b p) (max (Cert.SegMean.segCnt _ b p) 1)
  rw [hp]

/-! ## The run -/

/-- At the ideal instance every weakly fair execution of the program ends with its result at the segment mean of
    its two argument arrays, which it leaves unchanged. -/
theorem run_pooled : θ_run (defs (F := Ideal)) (onTc (τ := τ) (main (F := Ideal))) ⟨m, fun _ => 0, ρ⟩ (fun r => ∀ c : Dev nD,
      r.2.mem ((c.tc : Thread nD τ).loc main_v13) = Cert.SegMean.pooled (m ((c.tc : Thread nD τ).loc main_arg0)) (m ((c.tc : Thread nD τ).loc main_arg1))
      ∧ r.2.mem ((c.tc : Thread nD τ).loc main_arg0) = m ((c.tc : Thread nD τ).loc main_arg0) ∧ r.2.mem ((c.tc : Thread nD τ).loc main_arg1) = m ((c.tc : Thread nD τ).loc main_arg1)) :=
  (θ_run (defs (F := Ideal)) _ _).mono
    (fun _ h c => ⟨((h c).2 main_v13 (Pipeline.mem_restRefs_of main_v13 (by decide) (by decide))).trans (v13_pooled m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KVal

end
-- ==== Proof.RefValue.lean ====
/-
  The reference ends at the segment mean.

  The reference adds 49152 times the row number to each pixel word, flattens, and scatters channel 0 (and a vector
  of ones) by addition into 8 * 49152 cells; under the range hypothesis the flat cell of a sample of row b with
  pixel q is 49152 * b + q, so cell (b, q) receives exactly the samples of row b whose pixel word is q.

  The steps: an update of the one-index scatter lands on the cell whose number is its index word read signed;
  the flat index word of sample n of row b is p + 49152 * b, which does not wrap and, read signed, is 49152 * b + p;
  it equals 49152 * b0 + q (q below 49152) exactly when b = b0 and p is the word q; the flat positions are the
  pairs (b, n) row-major, so the sum over the updates that land on cell (b0, q) is the sum over the samples n of row
  b0 with pixel word q.  The quotient and the two broadcasts then read through at an index.
-/
import proofs.«430517_j86431921865188_3_alg».proof.Defs
import proofs.«430517_j86431921865188_3_alg».proof.Proof.Gen.ReferenceIdeal
import proofs.«430517_j86431921865188_3_alg».proof.Proof.Gen.ReferenceIdeal.Run
import proofs.«430517_j86431921865188_3_alg».proof.Proof.Gen.ReferenceIdeal.Read
import proofs.«430517_j86431921865188_3_alg».proof.Proof.SegMean
import Idealize.ShloMosaic.Lib.ValueIdx
import Idealize.ShloMosaic.Lib.StableHlo.Predicate
import Idealize.ShloMosaic.PureOps.Ideal.Laws

noncomputable section

open scoped BigOperators

namespace Cert.ReferenceIdeal.RefValue

open Idealize.ShloMosaic Idealize.ShloMosaic.ValueIdx Idealize.SL.Sem
open Cert.ReferenceIdeal Cert.ReferenceIdeal.Gen Cert.ReferenceIdeal.Read

/-- The word of the scatters' operand encodes zero. -/
theorem ofBits_zero : Ideal.ofBits .f32 0x00000000#32 = 0 := by simp [Ideal.ofBits, Ideal.ieee]
/-- The word of the count's updates and of the clamp encodes one. -/
theorem ofBits_one : Ideal.ofBits .f32 0x3F800000#32 = 1 := by
  simp [Ideal.ofBits, Ideal.ieee, -EReal.coe_mul]; norm_num

/-- The scatter's dimension numbers: one index per update, no window. -/
abbrev dS := scatter_S393216_S4194304x1_S4194304_n_0_0_1

/-- The start of update j on the one operand axis is its index word, read signed. -/
theorem start_eq {w : Nat} (idx : IVec S4194304x1 w) (j : S4194304.Idx) (a : Fin S393216.rank) :
    dS.start j idx a = (idx (ix2 (j 0) (0 : Fin 1))).toInt := by
  obtain rfl : a = 0 := Subsingleton.elim _ _
  unfold ScatterDims.start
  rw [dif_pos (show (0 : Fin 1) ∈ dS.scatterDimsToOperandDims from List.mem_singleton.mpr rfl)]
  congr 2
  funext b; refine Fin.ext ?_
  match b with
  | ⟨0, _⟩ => rfl
  | ⟨1, _⟩ => rfl

/-- No window: the window coordinate is zero. -/
theorem window_eq (j : S4194304.Idx) (a : Fin S393216.rank) : dS.window j a = 0 := by
  obtain rfl : a = 0 := Subsingleton.elim _ _
  unfold ScatterDims.window
  rw [dif_neg]
  decide

/-- Update j lands on cell i exactly when its index word, read signed, is i's coordinate. -/
theorem resultIdx_iff {w : Nat} (idx : IVec S4194304x1 w) (j : S4194304.Idx) (i : S393216.Idx) :
    dS.resultIdx? j idx = some i ↔ (idx (ix2 (j 0) (0 : Fin 1))).toInt = ((i 0).val : Int) := by
  have hi : (i 0).val < 393216 := (i 0).isLt
  unfold ScatterDims.resultIdx?
  constructor
  · intro h
    split at h
    · rename_i hh
      have h1 := congrFun (Option.some.inj h) 0
      have h2 := congrArg Fin.val h1
      have h3 := hh 0
      rw [start_eq, window_eq] at h3
      simp only [start_eq, window_eq] at h2
      simp at h2 h3
      omega
    · exact absurd h (by simp)
  · intro h
    have hh : ∀ a, 0 ≤ dS.start j idx a + dS.window j a ∧ dS.start j idx a + dS.window j a < S393216.size a := by
      intro a
      obtain rfl : a = 0 := Subsingleton.elim _ _
      rw [start_eq, window_eq, h]
      show (0:Int) ≤ ((i 0).val : Int) + ((0:Nat):Int) ∧ ((i 0).val : Int) + ((0:Nat):Int) < ((393216 : Nat) : Int)
      omega
    rw [dif_pos hh]
    congr 1
    funext a
    obtain rfl : a = 0 := Subsingleton.elim _ _
    refine Fin.ext ?_
    show (dS.start j idx 0 + dS.window j 0).toNat = (i 0).val
    rw [start_eq, window_eq, h]
    simp

/-- A word in [0, 49152) read signed is below 49152 read unsigned. -/
theorem toNat_of_range (p : BitVec 32) (h0 : 0 ≤ p.toInt) (h1 : p.toInt < 49152) : p.toNat < 49152 := by
  have := p.isLt
  rw [BitVec.toInt_eq_toNat_cond] at h0 h1
  split at h0 <;> omega

/-- The flat word p + 49152 * b does not wrap: read signed it is 49152 * b + p. -/
theorem flat_toInt (p : BitVec 32) (b : Nat) (hb : b < 8) (h0 : 0 ≤ p.toInt) (h1 : p.toInt < 49152) :
    (IntOp.addi p (IntOp.muli 49152#32 (BitVec.ofNat 32 b))).toInt = 49152 * (b : Int) + p.toInt := by
  have hp := toNat_of_range p h0 h1
  have hn : (IntOp.addi p (IntOp.muli 49152#32 (BitVec.ofNat 32 b))).toNat = 49152 * b + p.toNat := by
    unfold IntOp.addi IntOp.muli
    simp only [BitVec.toNat_add, BitVec.toNat_mul, BitVec.toNat_ofNat]
    omega
  rw [StableHlo.Predicate.toInt_eq_toNat_of_lt (by rw [hn]; omega), hn,
    StableHlo.Predicate.toInt_eq_toNat_of_lt (a := p) (by omega)]
  push_cast; ring

/-- The flat word of (b, p) is the cell number 49152 * b0 + q exactly when b = b0 and p is the word q. -/
theorem flat_eq_iff (p : BitVec 32) (b b0 : Nat) (q : Nat) (hb : b < 8) (hq : q < 49152)
    (h0 : 0 ≤ p.toInt) (h1 : p.toInt < 49152) :
    (IntOp.addi p (IntOp.muli 49152#32 (BitVec.ofNat 32 b))).toInt = ((b0 * 49152 + q : Nat) : Int)
      ↔ b = b0 ∧ p = BitVec.ofNat 32 q := by
  rw [flat_toInt p b hb h0 h1]
  have hp := toNat_of_range p h0 h1
  rw [StableHlo.Predicate.toInt_eq_toNat_of_lt (a := p) (by omega)]
  constructor
  · intro h
    have hb' : b = b0 := by omega
    refine ⟨hb', ?_⟩
    apply BitVec.eq_of_toNat_eq
    rw [BitVec.toNat_ofNat]
    omega
  · rintro ⟨rfl, rfl⟩
    rw [BitVec.toNat_ofNat]
    have : q % 2 ^ 32 = q := by omega
    rw [this]; push_cast; ring

/-- The index array read at the flat position of sample n of row b. -/
theorem v11_at (x1 : IVec S8x524288 32) (b : Fin 8) (n : Fin 524288) (h : b.val * 524288 + n.val < 4194304) :
    val_main_v11 (F := Ideal) x1 (ix2 (⟨b.val * 524288 + n.val, h⟩ : Fin 4194304) (0 : Fin 1))
      = IntOp.addi (x1 (ix2 b n)) (IntOp.muli 49152#32 (BitVec.ofNat 32 b.val)) := by
  rw [val_main_v11_apply, val_main_v6_apply, val_main_v5_apply, val_main_v4_apply, val_main_v3_apply,
    val_main_v2_apply, val_main_c_apply, val_main_v1_apply, val_main_v0_apply]
  have hn := n.isLt
  have hb := b.isLt
  have h1 : idx_main_v6 (idx_main_v11 (ix2 (⟨b.val * 524288 + n.val, h⟩ : Fin 4194304) (0 : Fin 1))) = ix2 b n := by
    funext a
    match a with
    | ⟨0, _⟩ => exact Fin.ext (by show (b.val * 524288 + n.val) / 524288 = b.val; omega)
    | ⟨1, _⟩ => exact Fin.ext (by show (b.val * 524288 + n.val) % 524288 = n.val; omega)
  rw [h1]

/-- The flattened channel 0 read at the flat position of sample n of row b. -/
theorem v9_at (x0 : FVec Ideal S8x16x524288 .f32) (b : Fin 8) (n : Fin 524288) (h : b.val * 524288 + n.val < 4194304) :
    val_main_v9 (F := Ideal) x0 (ix1 (⟨b.val * 524288 + n.val, h⟩ : Fin 4194304)) = x0 (ix3 b (0 : Fin 16) n) := by
  rw [val_main_v9_apply, val_main_v8_apply, val_main_v7_apply]
  have hn := n.isLt
  have hb := b.isLt
  congr 1
  funext a
  match a with
  | ⟨0, _⟩ => exact Fin.ext (by show ((b.val * 524288 + n.val) / 524288 * 524288 + (b.val * 524288 + n.val) % 524288) / 524288 = b.val; omega)
  | ⟨1, _⟩ => rfl
  | ⟨2, _⟩ => exact Fin.ext (by show ((b.val * 524288 + n.val) / 524288 * 524288 + (b.val * 524288 + n.val) % 524288) % 524288 = n.val; omega)

/-- Flat positions are the pairs (row, sample), row-major. -/
def flatEquiv : Fin 8 × Fin 524288 ≃ S4194304.Idx where
  toFun p := ix1 (⟨p.1.val * 524288 + p.2.val, by have := p.1.isLt; have := p.2.isLt; omega⟩ : Fin 4194304)
  invFun j := (⟨(j 0).val / 524288, by have h : (j 0).val < 4194304 := (j 0).isLt; omega⟩,
               ⟨(j 0).val % 524288, by omega⟩)
  left_inv p := by
    have h1 := p.1.isLt; have h2 := p.2.isLt
    refine Prod.ext (Fin.ext ?_) (Fin.ext ?_)
    · show (p.1.val * 524288 + p.2.val) / 524288 = p.1.val; omega
    · show (p.1.val * 524288 + p.2.val) % 524288 = p.2.val; omega
  right_inv j := by
    funext a
    obtain rfl : a = 0 := Subsingleton.elim _ _
    refine Fin.ext ?_
    show (j 0).val / 524288 * 524288 + (j 0).val % 524288 = (j 0).val
    omega

/-- The flat position of (b, n) is 524288 * b + n. -/
theorem flatEquiv_apply (b : Fin 8) (n : Fin 524288) (h : b.val * 524288 + n.val < 4194304) :
    flatEquiv (b, n) = ix1 (⟨b.val * 524288 + n.val, h⟩ : Fin 4194304) := rfl

/-- A flat position is below 8 * 524288. -/
theorem flat_lt (b : Fin 8) (n : Fin 524288) : b.val * 524288 + n.val < 4194304 := by
  have := b.isLt; have := n.isLt; omega
/-- A cell number is below 8 * 49152. -/
theorem cell_lt (b : Fin 8) (q : Fin 49152) : b.val * 49152 + q.val < 393216 := by
  have := b.isLt; have := q.isLt; omega

/-- The update at flat position (b, n) lands on cell (b0, q) exactly when b = b0 and the pixel word is q. -/
theorem lands_iff (x1 : IVec S8x524288 32)
    (hr : ∀ i : S8x524288.Idx, 0 ≤ (x1 i).toInt ∧ (x1 i).toInt < 49152)
    (b0 : Fin 8) (q : Fin 49152) (b : Fin 8) (n : Fin 524288) :
    (dS.resultIdx? (flatEquiv (b, n)) (val_main_v11 (F := Ideal) x1)
        = some (ix1 (⟨b0.val * 49152 + q.val, cell_lt b0 q⟩ : Fin 393216)))
      ↔ (b = b0 ∧ x1 (ix2 b n) = BitVec.ofNat 32 q.val) := by
  rw [resultIdx_iff]
  have e : val_main_v11 (F := Ideal) x1 (ix2 ((flatEquiv (b, n)) 0) (0 : Fin 1))
      = IntOp.addi (x1 (ix2 b n)) (IntOp.muli 49152#32 (BitVec.ofNat 32 b.val)) := v11_at x1 b n (flat_lt b n)
  rw [e]
  have e2 : (((ix1 (⟨b0.val * 49152 + q.val, cell_lt b0 q⟩ : Fin 393216) : S393216.Idx) 0).val : Int)
      = ((b0.val * 49152 + q.val : Nat) : Int) := rfl
  rw [e2, flat_eq_iff _ _ _ _ b.isLt q.isLt (hr _).1 (hr _).2, Fin.ext_iff]

/-- Cell (b0, q) of the scatter receives exactly the samples of row b0 whose pixel word is q. -/
theorem scatterAdd_at (x1 : IVec S8x524288 32)
    (hr : ∀ i : S8x524288.Idx, 0 ≤ (x1 i).toInt ∧ (x1 i).toInt < 49152)
    (x : S393216.Idx → EReal) (upd : S4194304.Idx → EReal) (b0 : Fin 8) (q : Fin 49152) :
    Ideal.hostScatterAdd dS x (val_main_v11 (F := Ideal) x1) upd (ix1 (⟨b0.val * 49152 + q.val, cell_lt b0 q⟩ : Fin 393216))
      = x (ix1 (⟨b0.val * 49152 + q.val, cell_lt b0 q⟩ : Fin 393216))
        + ∑ n : Fin 524288, if x1 (ix2 b0 n) = BitVec.ofNat 32 q.val then upd (flatEquiv (b0, n)) else 0 := by
  unfold Ideal.hostScatterAdd
  refine congrArg (fun t => x (ix1 (⟨b0.val * 49152 + q.val, cell_lt b0 q⟩ : Fin 393216)) + t) ?_
  rw [Finset.sum_filter, ← Equiv.sum_comp flatEquiv, Fintype.sum_prod_type]
  simp only [lands_iff x1 hr b0 q]
  rw [Finset.sum_eq_single b0]
  · simp
  · intro b _ hb
    apply Finset.sum_eq_zero
    intro n _
    rw [if_neg]
    exact fun h => hb h.1
  · simp

/-- The flattened channel 0 at the flat position of (b, n). -/
theorem v9_flat (x0 : FVec Ideal S8x16x524288 .f32) (b : Fin 8) (n : Fin 524288) :
    val_main_v9 (F := Ideal) x0 (flatEquiv (b, n)) = x0 (ix3 b (0 : Fin 16) n) := v9_at x0 b n (flat_lt b n)

/-- The vector of ones is one everywhere. -/
theorem v13_one (j : S4194304.Idx) : val_main_v13 (F := Ideal) j = 1 := by
  rw [val_main_v13_apply, val_main_cst_0_apply, Ideal.ofBits_def, ofBits_one]

/-- The scatters' operand is zero everywhere. -/
theorem v10_zero (i : S393216.Idx) : val_main_v10 (F := Ideal) i = 0 := by
  rw [val_main_v10_apply, val_main_cst_apply, Ideal.ofBits_def, ofBits_zero]
/-- Likewise the second scatter's operand. -/
theorem v14_zero (i : S393216.Idx) : val_main_v14 (F := Ideal) i = 0 := by
  rw [val_main_v14_apply, val_main_cst_1_apply, Ideal.ofBits_def, ofBits_zero]

/-- The clamp's other operand is one everywhere. -/
theorem v19_one (i : S8x49152.Idx) : val_main_v19 (F := Ideal) i = 1 := by
  rw [val_main_v19_apply, val_main_cst_2_apply, Ideal.ofBits_def, ofBits_one]

/-- The first scatter: zeros, the flat index words, the flattened channel 0. -/
theorem v12_eq (x0 : FVec Ideal S8x16x524288 .f32) (x1 : IVec S8x524288 32) :
    val_main_v12 (F := Ideal) x0 x1
      = Ideal.hostScatterAdd dS (val_main_v10 (F := Ideal)) (val_main_v11 (F := Ideal) x1) (val_main_v9 (F := Ideal) x0) := rfl

/-- The second scatter: zeros, the same flat index words, ones. -/
theorem v16_eq (x1 : IVec S8x524288 32) :
    val_main_v16 (F := Ideal) x1
      = Ideal.hostScatterAdd dS (val_main_v14 (F := Ideal)) (val_main_v11 (F := Ideal) x1) (val_main_v13 (F := Ideal)) := rfl

/-- The cell number of (b, q), row-major. -/
theorem idx17_eq (b : Fin 8) (q : Fin 49152) :
    idx_main_v17 (ix2 b q) = ix1 (⟨b.val * 49152 + q.val, cell_lt b q⟩ : Fin 393216) := by
  funext a
  match a with
  | ⟨0, _⟩ => rfl

/-- The reshaped sums at (b, q): the sum of channel 0 over the samples of row b with pixel word q. -/
theorem v17_at (x0 : FVec Ideal S8x16x524288 .f32) (x1 : IVec S8x524288 32)
    (hr : ∀ i : S8x524288.Idx, 0 ≤ (x1 i).toInt ∧ (x1 i).toInt < 49152) (b : Fin 8) (q : Fin 49152) :
    val_main_v17 (F := Ideal) x0 x1 (ix2 b q) = Cert.SegMean.segSum x0 x1 b q := by
  rw [val_main_v17_apply, idx17_eq, v12_eq, scatterAdd_at x1 hr, v10_zero, zero_add]
  simp only [v9_flat]
  unfold Cert.SegMean.segSum
  rfl

/-- The reshaped counts at (b, q): the number of samples of row b with pixel word q. -/
theorem v18_at (x1 : IVec S8x524288 32)
    (hr : ∀ i : S8x524288.Idx, 0 ≤ (x1 i).toInt ∧ (x1 i).toInt < 49152) (b : Fin 8) (q : Fin 49152) :
    val_main_v18 (F := Ideal) x1 (ix2 b q) = Cert.SegMean.segCnt x1 b q := by
  rw [val_main_v18_apply, show idx_main_v18 (ix2 b q) = idx_main_v17 (ix2 b q) from rfl, idx17_eq, v16_eq,
    scatterAdd_at x1 hr, v14_zero, zero_add]
  simp only [v13_one]
  unfold Cert.SegMean.segCnt
  rfl

/-- The reference's composed term is the segment mean. -/
theorem value_pooled (x0 : FVec Ideal S8x16x524288 .f32) (x1 : IVec S8x524288 32)
    (hr : ∀ i : S8x524288.Idx, 0 ≤ (x1 i).toInt ∧ (x1 i).toInt < 49152) :
    val_main_v23 (F := Ideal) x0 x1 = Cert.SegMean.pooled x0 x1 := by
  funext i
  obtain ⟨b, q, ch, rfl⟩ : ∃ (b : Fin 8) (q : Fin 49152) (ch : Fin 16), i = ix3 b q ch := ⟨i 0, i 1, i 2, eq_ix3 i⟩
  rw [val_main_v23_apply, val_main_v22_apply, val_main_v21_apply, Ideal.hostDivf_def, val_main_v20_apply,
    Ideal.maximumf_def, v19_one]
  have e : idx_main_v22 (idx_main_v23 (ix3 b q ch)) = ix2 b q := by
    funext a
    match a with
    | ⟨0, _⟩ => rfl
    | ⟨1, _⟩ => rfl
  rw [e, v17_at x0 x1 hr, v18_at x1 hr]
  unfold Cert.SegMean.pooled
  rfl

/-- Under the range hypothesis on the pixel words, every weakly fair execution of the reference ends with its
    result at the segment mean of its two argument arrays, which it leaves unchanged. -/
theorem run_pooled (m : (ℓ : Loc nD τ sig) → Buf (Elt Ideal) ℓ) (ρ : Dev nD → PrngReg)
    (hrange : ∀ (c : Dev nD) (i : S8x524288.Idx),
      0 ≤ ((m ((c.tc : Thread nD τ).loc main_arg1) : IVec S8x524288 32) i).toInt
      ∧ ((m ((c.tc : Thread nD τ).loc main_arg1) : IVec S8x524288 32) i).toInt < 49152) :
    θ_run (defs (F := Ideal)) (onTc (τ := τ) (main (F := Ideal))) ⟨m, fun _ => 0, ρ⟩ (fun r => ∀ c : Dev nD,
      r.2.mem ((c.tc : Thread nD τ).loc main_v23)
        = Cert.SegMean.pooled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c).1.trans ((val_main_v23_eq _ _).trans (value_pooled _ _ (hrange c))), (h c).2⟩)
    (Cert.ReferenceIdeal.Value.run (F := Ideal) m ρ)

end Cert.ReferenceIdeal.RefValue

end
-- ==== Proof.PreRange.lean ====
/-
  The pixel words are in range under the precondition.

  The precondition is the conjunction of three whole-array tests: every value finite, every pixel word at least zero
  read signed, every pixel word below 49152 read signed.  Read at one index, the last two say that the word, read
  signed, lies in [0, 49152).
-/
import proofs.«430517_j86431921865188_3_alg».proof.Pre_finite_inputs
import proofs.«430517_j86431921865188_3_alg».proof.Proof.Gen.Pre_finite_inputs
import Idealize.ShloMosaic.Lib.ReduceAll
import Idealize.ShloMosaic.Lib.ValueIdx

noncomputable section

namespace Cert.PreRange

open Idealize.ShloMosaic Idealize.ShloMosaic.ValueIdx

variable {F : FTy → Type} [FloatOps F]

/-- Under the precondition every pixel word, read signed, lies in [0, 49152). -/
theorem pix_range (x : FVec F Cert.Pre_finite_inputs.S8x16x524288 .f32) (p : IVec Cert.Pre_finite_inputs.S8x524288 32)
    (h : Cert.Pre_finite_inputs.fn (F := F) x p = fun _ => 1#1) (i : Cert.Pre_finite_inputs.S8x524288.Idx) :
    0 ≤ (p i).toInt ∧ (p i).toInt < 49152 := by
  -- the result has a single index, so a whole-array conjunction that came out true was true at every index
  haveI : Subsingleton Cert.Pre_finite_inputs.S_.Idx := ⟨fun a b => funext fun d => d.elim0⟩
  have h0 := congrFun h ValueIdx.ix0
  dsimp only [Cert.Pre_finite_inputs.fn, andi] at h0
  -- the outer conjunction: (finite ∧ all ≥ 0) ∧ all < 49152
  obtain ⟨h7, h10⟩ := IntOp.andi_eq_one.1 h0
  obtain ⟨_, h6⟩ := IntOp.andi_eq_one.1 h7
  -- each whole-array test, read at the index i
  have g5 := Host.reduce_andi_all _ _ _ _ _ h6 i
  have g9 := Host.reduce_andi_all _ _ _ _ _ h10 i
  -- a broadcast scalar constant reads the constant everywhere
  dsimp only [cmpi, broadcastInDim, constantI] at g5 g9
  have e0 : (0#32 : BitVec 32).toInt = 0 := by decide
  have e1 : (49152#32 : BitVec 32).toInt = 49152 := by decide
  have a5 := IntOp.cmpi_sge.1 g5
  have a9 := IntOp.cmpi_slt.1 g9
  rw [e0] at a5
  rw [e1] at a9
  exact ⟨a5, a9⟩

end Cert.PreRange

end
-- ==== Proof.lean ====
/-
  The segment mean by a two-digit one-hot matrix product equals the segment mean by scatter-addition.

  Inputs: values [8, 16, 524288] and pixel words [8, 524288].  For each row b and pixel q the reference adds
  channel 0 of the samples of row b whose pixel is q into cell 49152 b + q of a flat array (and ones into a
  second), reshapes, and divides the sum by the count clamped below at one.  The kernel writes q = 256 a + c, builds
  per block of 4096 samples the one-hot of the high digit a (weighted by the value, and unweighted) and of the low
  digit c, multiplies the two over the samples, accumulates the products over the 128 blocks of a row, and divides
  the weighted half by the unweighted half clamped below at one.

  A word w has high digit a < 192 and low digit c < 256 exactly when w is the word 256 a + c, so the kernel's
  cell (b, a, c) receives the samples of row b whose pixel word is 256 a + c, with no hypothesis on the pixels.  The
  reference's flat cell 49152 b + q receives the samples of row b with pixel q provided every pixel lies in
  [0, 49152): a pixel outside that range would be added into another row's cell.  That range is the
  precondition's second part; under it both programs end at the one function `Cert.SegMean.pooled` of the
  arguments.  Sums are re-bracketed and re-ordered only, which the extended reals allow without finiteness.

  The kernel's frame follows its three kinds of grid point (first of a row: the accumulator is zeroed; between;
  last of a row: the quotient is stored) with the accumulator's contents named after every point.
-/
import proofs.«430517_j86431921865188_3_alg».proof.Defs
import proofs.«430517_j86431921865188_3_alg».proof.Proof.Gen.Kernel
import proofs.«430517_j86431921865188_3_alg».proof.Proof.Gen.KernelIdeal
import proofs.«430517_j86431921865188_3_alg».proof.Proof.Gen.ReferenceIdeal
import proofs.«430517_j86431921865188_3_alg».proof.Proof.Gen.ReferenceIdeal.Run
import proofs.«430517_j86431921865188_3_alg».proof.Proof.Gen.Pre_finite_inputs
import proofs.«430517_j86431921865188_3_alg».proof.Proof.BodyFrame
import proofs.«430517_j86431921865188_3_alg».proof.Proof.KernelBits.BodyFrame
import proofs.«430517_j86431921865188_3_alg».proof.Proof.KernelFinal
import proofs.«430517_j86431921865188_3_alg».proof.Proof.RefValue
import proofs.«430517_j86431921865188_3_alg».proof.Proof.PreRange
import proofs.«430517_j86431921865188_3_alg».proof.Proof.SegMean
import Idealize.ShloMosaic.Adequacy
import Idealize.ShloMosaic.Init

noncomputable section

namespace Cert.Proof

open Idealize.ShloMosaic Idealize.SL.Sem

/-- The word-level kernel runs to the end and leaves its arguments as found. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the segment mean of the arguments: the kernel always, the reference because the
    precondition keeps every pixel word in [0, 49152). -/
theorem algebraic : Cert.algebraic_KernelIdeal_ReferenceIdeal := by
  intro m ρ m' ρ' hpre hagree
  refine ⟨fun c => Cert.SegMean.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KVal.run_pooled m ρ, ?_⟩
  have hr : ∀ (c : Dev Cert.ReferenceIdeal.nD) (i : Cert.ReferenceIdeal.S8x524288.Idx),
      0 ≤ ((m' ((c.tc : Thread Cert.ReferenceIdeal.nD Cert.ReferenceIdeal.τ).loc Cert.ReferenceIdeal.main_arg1) : IVec Cert.ReferenceIdeal.S8x524288 32) i).toInt
      ∧ ((m' ((c.tc : Thread Cert.ReferenceIdeal.nD Cert.ReferenceIdeal.τ).loc Cert.ReferenceIdeal.main_arg1) : IVec Cert.ReferenceIdeal.S8x524288 32) i).toInt < 49152 := by
    intro c i
    rw [(hagree c).2]
    exact Cert.PreRange.pix_range _ _ (hpre c) i
  refine (θ_run Cert.ReferenceIdeal.defs _ _).mono (fun _ h c => ⟨(h c).1.trans ?_, (h c).2⟩)
    (Cert.ReferenceIdeal.RefValue.run_pooled m' ρ' hr)
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
